-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "e_eps_sq" .f32 0x300CBCCC#32 ((77371252064649 / 151115727451828646838272 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x32000 : Shape := ⟨3, ![8, 128, 32000]⟩
abbrev S8x128 : Shape := ⟨2, ![8, 128]⟩
abbrev S8x200 : Shape := ⟨2, ![8, 200]⟩
abbrev S32000x512 : Shape := ⟨2, ![32000, 512]⟩
abbrev S_ : Shape := ⟨0, ![]⟩

class Facts : Prop where
  bcast_S_S8x128x32000 : S_.BroadcastsInDim S8x128x32000 (![] : Fin 0 → Fin S8x128x32000.rank)
  reducesTo_S8x128x32000_S_d0_1_2 : S8x128x32000.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_
  bcast_S_S8x200 : S_.BroadcastsInDim S8x200 (![] : Fin 0 → Fin S8x200.rank)
  reducesTo_S8x200_S_d0_1 : S8x200.ReducesTo [0, 1] S_
  bcast_S_S32000x512 : S_.BroadcastsInDim S32000x512 (![] : Fin 0 → Fin S32000x512.rank)
  reducesTo_S32000x512_S_d0_1 : S32000x512.ReducesTo [0, 1] S_

variable [Facts]

def fn_part1 {F : FTy → Type} [FloatOps F] (main_arg3 : IVec S8x200 32) (main_v13 : IVec S_ 1) (main_v16 : IVec S32000x512 1) : IVec S_ 1 :=
  let main_c_5 : IVec S_ 1 := constantI S_ 1 1#1
  let main_v17 : IVec S_ 1 := (fun x v => Host.reduce IntOp.andi x v reducesTo_S32000x512_S_d0_1 h_S_) main_v16 main_c_5
  let main_v18 : IVec S_ 1 := andi main_v13 main_v17
  let main_c_6 : IVec S_ 32 := constantI S_ 32 0#32
  let main_v19 : IVec S8x200 32 := broadcastInDim S8x200 ![] bcast_S_S8x200 main_c_6
  let main_v20 : IVec S8x200 1 := cmpi .sge main_arg3 main_v19
  let main_c_7 : IVec S_ 1 := constantI S_ 1 1#1
  let main_v21 : IVec S_ 1 := (fun x v => Host.reduce IntOp.andi x v reducesTo_S8x200_S_d0_1 h_S_) main_v20 main_c_7
  let main_v22 : IVec S_ 1 := andi main_v18 main_v21
  let main_c_8 : IVec S_ 32 := constantI S_ 32 32000#32
  let main_v23 : IVec S8x200 32 := broadcastInDim S8x200 ![] bcast_S_S8x200 main_c_8
  let main_v24 : IVec S8x200 1 := cmpi .slt main_arg3 main_v23
  let main_c_9 : IVec S_ 1 := constantI S_ 1 1#1
  let main_v25 : IVec S_ 1 := (fun x v => Host.reduce IntOp.andi x v reducesTo_S8x200_S_d0_1 h_S_) main_v24 main_c_9
  let main_v26 : IVec S_ 1 := andi main_v22 main_v25
  main_v26

def fn {F : FTy → Type} [FloatOps F] (main_arg0 : FVec F S8x128x32000 .f32) (main_arg1 : IVec S8x128 32) (main_arg2 : FVec F S8x128 .f32) (main_arg3 : IVec S8x200 32) (main_arg4 : FVec F S8x200 .f32) (main_arg5 : FVec F S32000x512 .f32) : IVec S_ 1 :=
  let main_v0 : FVec F S8x128x32000 .f32 := Host.absf main_arg0
  let main_cst : FVec F S_ .f32 := constant S_ .f32 0x7F800000#32
  let main_v1 : FVec F S8x128x32000 .f32 := broadcastInDim S8x128x32000 ![] bcast_S_S8x128x32000 main_cst
  let main_v2 : IVec S8x128x32000 1 := cmpf .olt main_v0 main_v1
  let main_c : IVec S_ 1 := constantI S_ 1 1#1
  let main_v3 : IVec S_ 1 := (fun x v => Host.reduce IntOp.andi x v reducesTo_S8x128x32000_S_d0_1_2 h_S_) main_v2 main_c
  let main_v4 : FVec F S8x128 .f32 := Host.absf main_arg2
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S8x200 .f32 := Host.absf main_arg4
  let main_cst_2 : FVec F S_ .f32 := constant S_ .f32 0x7F800000#32
  let main_v10 : FVec F S8x200 .f32 := broadcastInDim S8x200 ![] bcast_S_S8x200 main_cst_2
  let main_v11 : IVec S8x200 1 := cmpf .olt main_v9 main_v10
  let main_c_3 : IVec S_ 1 := constantI S_ 1 1#1
  let main_v12 : IVec S_ 1 := (fun x v => Host.reduce IntOp.andi x v reducesTo_S8x200_S_d0_1 h_S_) main_v11 main_c_3
  let main_v13 : IVec S_ 1 := andi main_v8 main_v12
  let main_v14 : FVec F S32000x512 .f32 := Host.absf main_arg5
  let main_cst_4 : FVec F S_ .f32 := constant S_ .f32 0x7F800000#32
  let main_v15 : FVec F S32000x512 .f32 := broadcastInDim S32000x512 ![] bcast_S_S32000x512 main_cst_4
  let main_v16 : IVec S32000x512 1 := cmpf .olt main_v14 main_v15
  fn_part1 (F := F) main_arg3 main_v13 main_v16
-- ==== Kernel.lean ====
abbrev S8x128x32000 : Shape := ⟨3, ![8, 128, 32000]⟩
abbrev S8x128 : Shape := ⟨2, ![8, 128]⟩
abbrev S8x200 : Shape := ⟨2, ![8, 200]⟩
abbrev S32000x512 : Shape := ⟨2, ![32000, 512]⟩
abbrev S_ : Shape := ⟨0, ![]⟩
abbrev S8x128x1 : Shape := ⟨3, ![8, 128, 1]⟩
abbrev S8x128x512 : Shape := ⟨3, ![8, 128, 512]⟩
abbrev S8x200x1 : Shape := ⟨3, ![8, 200, 1]⟩
abbrev S8x200x512 : Shape := ⟨3, ![8, 200, 512]⟩
abbrev S8x1x200 : Shape := ⟨3, ![8, 1, 200]⟩
abbrev S8x1x128 : Shape := ⟨3, ![8, 1, 128]⟩
abbrev S1x128x16000 : Shape := ⟨3, ![1, 128, 16000]⟩
abbrev S1x1x200 : Shape := ⟨3, ![1, 1, 200]⟩
abbrev S1x128x512 : Shape := ⟨3, ![1, 128, 512]⟩
abbrev S1x200x512 : Shape := ⟨3, ![1, 200, 512]⟩
abbrev S1x1x128 : Shape := ⟨3, ![1, 1, 128]⟩
abbrev S128x200 : Shape := ⟨2, ![128, 200]⟩
abbrev S200 : Shape := ⟨1, ![200]⟩
abbrev S3200x200 : Shape := ⟨2, ![3200, 200]⟩
abbrev S1x200 : Shape := ⟨2, ![1, 200]⟩
abbrev S1x128x3200 : Shape := ⟨3, ![1, 128, 3200]⟩
abbrev S128x3200 : Shape := ⟨2, ![128, 3200]⟩
abbrev S128x512 : Shape := ⟨2, ![128, 512]⟩
abbrev S200x512 : Shape := ⟨2, ![200, 512]⟩
abbrev S128 : Shape := ⟨1, ![128]⟩
abbrev S128x1 : Shape := ⟨2, ![128, 1]⟩
abbrev S200x1 : Shape := ⟨2, ![200, 1]⟩

abbrev nBuf : Space → Nat
  | .hbm => 35
  | .vmem => 13
  | .smem => 0
  | _ => 0

abbrev bufTy : (tb : Table) → Fin (tcTables nBuf tb) → BufTy
  | .hbm, ⟨0, _⟩ => ⟨S8x128x32000, .f32⟩
  | .hbm, ⟨1, _⟩ => ⟨S8x128, .i32⟩
  | .hbm, ⟨2, _⟩ => ⟨S8x128, .f32⟩
  | .hbm, ⟨3, _⟩ => ⟨S8x200, .i32⟩
  | .hbm, ⟨4, _⟩ => ⟨S8x200, .f32⟩
  | .hbm, ⟨5, _⟩ => ⟨S32000x512, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x512, .f32⟩
  | .hbm, ⟨15, _⟩ => ⟨S8x128x1, .f32⟩
  | .hbm, ⟨16, _⟩ => ⟨S8x128x512, .f32⟩
  | .hbm, ⟨17, _⟩ => ⟨S8x128x512, .f32⟩
  | .hbm, ⟨18, _⟩ => ⟨S_, .i32⟩
  | .hbm, ⟨19, _⟩ => ⟨S8x200, .i32⟩
  | .hbm, ⟨20, _⟩ => ⟨S8x200, .i1⟩
  | .hbm, ⟨21, _⟩ => ⟨S_, .i32⟩
  | .hbm, ⟨22, _⟩ => ⟨S8x200, .i32⟩
  | .hbm, ⟨23, _⟩ => ⟨S8x200, .i32⟩
  | .hbm, ⟨24, _⟩ => ⟨S8x200, .i32⟩
  | .hbm, ⟨25, _⟩ => ⟨S8x200x1, .i32⟩
  | .hbm, ⟨26, _⟩ => ⟨S8x200x512, .f32⟩
  | .hbm, ⟨27, _⟩ => ⟨S8x200x1, .f32⟩
  | .hbm, ⟨28, _⟩ => ⟨S8x200x512, .f32⟩
  | .hbm, ⟨29, _⟩ => ⟨S8x200x512, .f32⟩
  | .hbm, ⟨30, _⟩ => ⟨S8x1x200, .i32⟩
  | .hbm, ⟨31, _⟩ => ⟨S8x1x128, .f32⟩
  | .hbm, ⟨32, _⟩ => ⟨S8x1x128, .f32⟩
  | .hbm, ⟨33, _⟩ => ⟨S_, .f32⟩
  | .hbm, ⟨34, _⟩ => ⟨S_, .f32⟩
  | .local _ .vmem, ⟨0, _⟩ => ⟨S1x128x16000, .f32⟩
  | .local _ .vmem, ⟨1, _⟩ => ⟨S1x128x16000, .f32⟩
  | .local _ .vmem, ⟨2, _⟩ => ⟨S1x1x200, .i32⟩
  | .local _ .vmem, ⟨3, _⟩ => ⟨S1x1x200, .i32⟩
  | .local _ .vmem, ⟨4, _⟩ => ⟨S1x128x512, .f32⟩
  | .local _ .vmem, ⟨5, _⟩ => ⟨S1x128x512, .f32⟩
  | .local _ .vmem, ⟨6, _⟩ => ⟨S1x200x512, .f32⟩
  | .local _ .vmem, ⟨7, _⟩ => ⟨S1x200x512, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S128x200, .f32⟩
  | _, _ => ⟨S8x128x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_3 : BitVec 32 := 0#32
  let c5_i32 : BitVec 32 := 5#32
  let v7 : BitVec 32 := Scalar.addi c0_i32_3 c5_i32
  let c1_i32 : BitVec 32 := 1#32
  ⟨c0_i32_3, v7, c1_i32⟩
def k0_mult1 (k0_t1 : Fin k0_t1_loop.trips) : BitVec 32 :=
  let c0_i32_8 : BitVec 32 := 0#32
  let c0_i32_3 : BitVec 32 := 0#32
  let c1_i32 : BitVec 32 := 1#32
  let arg9 : BitVec 32 := Scf.iv c0_i32_3 c1_i32 k0_t1
  let c1_i32_7 : BitVec 32 := 1#32
  let v11 : BitVec 32 := Scalar.muli arg9 c1_i32_7
  let v12 : BitVec 32 := Scalar.addi c0_i32_8 v11
  let c3200_i32 : BitVec 32 := 3200#32
  let v13 : BitVec 32 := Scalar.muli v12 c3200_i32
  v13
def k0_off1 (k0_t1 : Fin k0_t1_loop.trips) : Fin 3 → Nat :=
  let c0_9 : Index := 0#32
  let c0_10 : Index := 0#32
  let c0_i32_8 : BitVec 32 := 0#32
  let c0_i32_3 : BitVec 32 := 0#32
  let c1_i32 : BitVec 32 := 1#32
  let arg9 : BitVec 32 := Scf.iv c0_i32_3 c1_i32 k0_t1
  let c1_i32_7 : BitVec 32 := 1#32
  let v11 : BitVec 32 := Scalar.muli arg9 c1_i32_7
  let v12 : BitVec 32 := Scalar.addi c0_i32_8 v11
  let c3200_i32 : BitVec 32 := 3200#32
  let v13 : BitVec 32 := Scalar.muli v12 c3200_i32
  let v14 : BitVec 32 := v13
  let v24 : Index := Scalar.indexCast v14
  ![0, 0, v24.toNat]
def k0_cond2 (i : grid0.Coords) : BitVec 1 :=
  let arg1 : BitVec 32 := BitVec.ofNat 32 (i 1).val
  let c1_i32_5 : BitVec 32 := 1#32
  let v8 : BitVec 1 := Scalar.cmpi .eq arg1 c1_i32_5
  let v9 : BitVec 32 := Scalar.extui v8
  let c0_i32_6 : BitVec 32 := 0#32
  let v10 : BitVec 1 := Scalar.cmpi .ne v9 c0_i32_6
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x200 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x200x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128x1_S8x128x512_0_1_2 : S8x128x1.BroadcastsInDim S8x128x512 (![0, 1, 2] : Fin 3 → Fin S8x128x512.rank)
  bcast_S_S8x200 : S_.BroadcastsInDim S8x200 (![] : Fin 0 → Fin S8x200.rank)
  bcast_S8x200_S8x200x1_0_1 : S8x200.BroadcastsInDim S8x200x1 (![0, 1] : Fin 2 → Fin S8x200x1.rank)
  bcast_S8x200x1_S8x200x512_0_1_2 : S8x200x1.BroadcastsInDim S8x200x512 (![0, 1, 2] : Fin 3 → Fin S8x200x512.rank)
  shapeCasts_S8x200_S8x1x200 : S8x200.ShapeCasts S8x1x200
  shapeCasts_S8x128_S8x1x128 : S8x128.ShapeCasts S8x1x128
  inb_S128x200_S128x200_0_0 : ∀ a, (![0, 0] : Fin 2 → Nat) a + S128x200.size a ≤ S128x200.size a
  h_S128x200 : 0 < S128x200.numel
  shapeCasts_S128x200_S128x200 : S128x200.ShapeCasts S128x200
  inb_S1x1x200_S1x1x200_0_0_0 : ∀ a, (![0, 0, 0] : Fin 3 → Nat) a + S1x1x200.size a ≤ S1x1x200.size a
  h_S1x1x200 : 0 < S1x1x200.numel
  shapeCasts_S1x1x200_S200 : S1x1x200.ShapeCasts S200
  iota_S3200x200_d0_w32 : S3200x200.Iotas .tc 32 [0]
  shapeCasts_S200_S1x200 : S200.ShapeCasts S1x200
  broadcasts_S1x200_S3200x200 : S1x200.Broadcasts S3200x200
  natLt_1_32 : 1 < 32
  bitsLt_bf16_f32 : FTy.bits .bf16 < FTy.bits .f32
  h_S1x128x3200 : 0 < S1x128x3200.numel
  shapeCasts_S1x128x3200_S128x3200 : S1x128x3200.ShapeCasts S128x3200
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x200x512_S1x200x512_0_0_0 : ∀ a, (![0, 0, 0] : Fin 3 → Nat) a + S1x200x512.size a ≤ S1x200x512.size a
  h_S1x200x512 : 0 < S1x200x512.numel
  shapeCasts_S1x200x512_S200x512 : S1x200x512.ShapeCasts S200x512
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  reduces_S128x512_S128 : S128x512.Reduces [1] S128
  shapeCasts_S128_S128x1 : S128.ShapeCasts S128x1
  reduces_S200x512_S200 : S200x512.Reduces [1] S200
  shapeCasts_S200_S200x1 : S200.ShapeCasts S200x1
  transposes_S200x1_p1_0_S1x200 : S200x1.Transposes [1, 0] S1x200
  broadcasts_S128x1_S128x200 : S128x1.Broadcasts S128x200
  broadcasts_S1x200_S128x200 : S1x200.Broadcasts S128x200
  reduces_S128x200_S128 : S128x200.Reduces [1] S128
  shapeCasts_S128_S1x1x128 : S128.ShapeCasts S1x1x128
  reducesTo_S8x1x128_S_d0_1_2 : S8x1x128.ReducesTo [0, 1, 2] S_
  h_S_ : 0 < S_.numel
  gather_S32000x512_S8x128x1_S8x128x512_2_0_n_n_0_2_1512_wf : GatherDims.WF S32000x512 S8x128x1 S8x128x512 [2] [0] [] [0] [] 2 ![1, 512]
  gather_S32000x512_S8x200x1_S8x200x512_2_0_n_n_0_2_1512_wf : GatherDims.WF S32000x512 S8x200x1 S8x200x512 [2] [0] [] [0] [] 2 ![1, 512]
  dot_S128x3200_S3200x200_S128x200_1_0_0_1_n_n_wf : DotDims.WF S128x3200 S3200x200 S128x200 [1] [0] [0] [1] [] []
  dot_S128x512_S200x512_S128x200_1_1_0_0_n_n_wf : DotDims.WF S128x512 S200x512 S128x200 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x3200.size a ≤ S1x128x16000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16000.size a ≤ S8x128x32000.size a
  hwx0_0 : ∀ i : grid0.Coords, EltTy.bits .f32 = 32 ∨ (Rect.block (s := S8x128x32000) S1x128x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x200.size a ≤ S8x1x200.size a
  hwx0_1 : ∀ i : grid0.Coords, EltTy.bits .i32 = 32 ∨ (Rect.block (s := S8x1x200) S1x1x200.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S8x128x512.size a
  hwx0_2 : ∀ i : grid0.Coords, EltTy.bits .f32 = 32 ∨ (Rect.block (s := S8x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x200x512.size a ≤ S8x200x512.size a
  hwx0_3 : ∀ i : grid0.Coords, EltTy.bits .f32 = 32 ∨ (Rect.block (s := S8x200x512) S1x200x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)

variable [Facts₀]

def gather_S32000x512_S8x128x1_S8x128x512_2_0_n_n_0_2_1512 : GatherDims S32000x512 S8x128x1 S8x128x512 where
  offsetDims := [2]
  collapsedSliceDims := [0]
  operandBatchingDims := []
  startIndicesBatchingDims := []
  startIndexMap := [0]
  indexVectorDim := 2
  sliceSizes := ![1, 512]
  wf := gather_S32000x512_S8x128x1_S8x128x512_2_0_n_n_0_2_1512_wf
def gather_S32000x512_S8x200x1_S8x200x512_2_0_n_n_0_2_1512 : GatherDims S32000x512 S8x200x1 S8x200x512 where
  offsetDims := [2]
  collapsedSliceDims := [0]
  operandBatchingDims := []
  startIndicesBatchingDims := []
  startIndexMap := [0]
  indexVectorDim := 2
  sliceSizes := ![1, 512]
  wf := gather_S32000x512_S8x200x1_S8x200x512_2_0_n_n_0_2_1512_wf
def dot_S128x3200_S3200x200_S128x200_1_0_0_1_n_n : DotDims S128x3200 S3200x200 S128x200 where
  lhsContracting := [1]
  rhsContracting := [0]
  lhsNonContracting := [0]
  rhsNonContracting := [1]
  lhsBatch := []
  rhsBatch := []
  wf := dot_S128x3200_S3200x200_S128x200_1_0_0_1_n_n_wf
def dot_S128x512_S200x512_S128x200_1_1_0_0_n_n : DotDims S128x512 S200x512 S128x200 where
  lhsContracting := [1]
  rhsContracting := [1]
  lhsNonContracting := [0]
  rhsNonContracting := [0]
  lhsBatch := []
  rhsBatch := []
  wf := dot_S128x512_S200x512_S128x200_1_1_0_0_n_n_wf

abbrev win0_0 : Pipeline.Window sig grid0 :=
  Pipeline.Window.ofSpec (Memref.whole main_arg0) S1x128x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x1x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x200x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x128x32000 : Shape := ⟨3, ![8, 128, 32000]⟩
abbrev S8x128 : Shape := ⟨2, ![8, 128]⟩
abbrev S8x200 : Shape := ⟨2, ![8, 200]⟩
abbrev S32000x512 : Shape := ⟨2, ![32000, 512]⟩
abbrev S_ : Shape := ⟨0, ![]⟩
abbrev S8x128x1 : Shape := ⟨3, ![8, 128, 1]⟩
abbrev S8x128x512 : Shape := ⟨3, ![8, 128, 512]⟩
abbrev S8x200x1 : Shape := ⟨3, ![8, 200, 1]⟩
abbrev S8x200x512 : Shape := ⟨3, ![8, 200, 512]⟩
abbrev S8x1x200x512 : Shape := ⟨4, ![8, 1, 200, 512]⟩
abbrev S8x128x1x512 : Shape := ⟨4, ![8, 128, 1, 512]⟩
abbrev S8x128x200x512 : Shape := ⟨4, ![8, 128, 200, 512]⟩
abbrev S8x128x200 : Shape := ⟨3, ![8, 128, 200]⟩
abbrev S8x1x200 : Shape := ⟨3, ![8, 1, 200]⟩
abbrev S8x128x200x1 : Shape := ⟨4, ![8, 128, 200, 1]⟩
abbrev S1 : Shape := ⟨1, ![1]⟩
abbrev S1x1x1x1 : Shape := ⟨4, ![1, 1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S8x128x32000, .f32⟩
  | .hbm, ⟨1, _⟩ => ⟨S8x128, .i32⟩
  | .hbm, ⟨2, _⟩ => ⟨S8x128, .f32⟩
  | .hbm, ⟨3, _⟩ => ⟨S8x200, .i32⟩
  | .hbm, ⟨4, _⟩ => ⟨S8x200, .f32⟩
  | .hbm, ⟨5, _⟩ => ⟨S32000x512, .f32⟩
  | .hbm, ⟨6, _⟩ => ⟨S_, .i32⟩
  | .hbm, ⟨7, _⟩ => ⟨S8x128, .i32⟩
  | .hbm, ⟨8, _⟩ => ⟨S8x128, .i1⟩
  | .hbm, ⟨9, _⟩ => ⟨S_, .i32⟩
  | .hbm, ⟨10, _⟩ => ⟨S8x128, .i32⟩
  | .hbm, ⟨11, _⟩ => ⟨S8x128, .i32⟩
  | .hbm, ⟨12, _⟩ => ⟨S8x128, .i32⟩
  | .hbm, ⟨13, _⟩ => ⟨S8x128x1, .i32⟩
  | .hbm, ⟨14, _⟩ => ⟨S8x128x512, .f32⟩
  | .hbm, ⟨15, _⟩ => ⟨S8x128x1, .f32⟩
  | .hbm, ⟨16, _⟩ => ⟨S8x128x512, .f32⟩
  | .hbm, ⟨17, _⟩ => ⟨S8x128x512, .f32⟩
  | .hbm, ⟨18, _⟩ => ⟨S_, .i32⟩
  | .hbm, ⟨19, _⟩ => ⟨S8x200, .i32⟩
  | .hbm, ⟨20, _⟩ => ⟨S8x200, .i1⟩
  | .hbm, ⟨21, _⟩ => ⟨S_, .i32⟩
  | .hbm, ⟨22, _⟩ => ⟨S8x200, .i32⟩
  | .hbm, ⟨23, _⟩ => ⟨S8x200, .i32⟩
  | .hbm, ⟨24, _⟩ => ⟨S8x200, .i32⟩
  | .hbm, ⟨25, _⟩ => ⟨S8x200x1, .i32⟩
  | .hbm, ⟨26, _⟩ => ⟨S8x200x512, .f32⟩
  | .hbm, ⟨27, _⟩ => ⟨S8x200x1, .f32⟩
  | .hbm, ⟨28, _⟩ => ⟨S8x200x512, .f32⟩
  | .hbm, ⟨29, _⟩ => ⟨S8x200x512, .f32⟩
  | .hbm, ⟨30, _⟩ => ⟨S8x1x200x512, .f32⟩
  | .hbm, ⟨31, _⟩ => ⟨S8x128x1x512, .f32⟩
  | .hbm, ⟨32, _⟩ => ⟨S8x128x200x512, .f32⟩
  | .hbm, ⟨33, _⟩ => ⟨S8x128x200x512, .f32⟩
  | .hbm, ⟨34, _⟩ => ⟨S8x128x200x512, .f32⟩
  | .hbm, ⟨35, _⟩ => ⟨S_, .f32⟩
  | .hbm, ⟨36, _⟩ => ⟨S8x128x200x512, .f32⟩
  | .hbm, ⟨37, _⟩ => ⟨S8x128x200x512, .f32⟩
  | .hbm, ⟨38, _⟩ => ⟨S8x128x200x512, .f32⟩
  | .hbm, ⟨39, _⟩ => ⟨S_, .f32⟩
  | .hbm, ⟨40, _⟩ => ⟨S8x128x200, .f32⟩
  | .hbm, ⟨41, _⟩ => ⟨S8x128x200, .f32⟩
  | .hbm, ⟨42, _⟩ => ⟨S8x1x200, .i32⟩
  | .hbm, ⟨43, _⟩ => ⟨S8x128x200, .i32⟩
  | .hbm, ⟨44, _⟩ => ⟨S_, .i32⟩
  | .hbm, ⟨45, _⟩ => ⟨S8x128x200, .i32⟩
  | .hbm, ⟨46, _⟩ => ⟨S8x128x200, .i1⟩
  | .hbm, ⟨47, _⟩ => ⟨S_, .i32⟩
  | .hbm, ⟨48, _⟩ => ⟨S8x128x200, .i32⟩
  | .hbm, ⟨49, _⟩ => ⟨S8x128x200, .i32⟩
  | .hbm, ⟨50, _⟩ => ⟨S8x128x200, .i32⟩
  | .hbm, ⟨51, _⟩ => ⟨S8x128x200x1, .i32⟩
  | .hbm, ⟨52, _⟩ => ⟨S1, .i32⟩
  | .hbm, ⟨53, _⟩ => ⟨S_, .i32⟩
  | .hbm, ⟨54, _⟩ => ⟨S8x128x200x1, .i32⟩
  | .hbm, ⟨55, _⟩ => ⟨S8x128x200x1, .i1⟩
  | .hbm, ⟨56, _⟩ => ⟨S1x1x1x1, .i32⟩
  | .hbm, ⟨57, _⟩ => ⟨S8x128x200x1, .i32⟩
  | .hbm, ⟨58, _⟩ => ⟨S8x128x200x1, .i1⟩
  | .hbm, ⟨59, _⟩ => ⟨S8x128x200x1, .i1⟩
  | .hbm, ⟨60, _⟩ => ⟨S_, .i1⟩
  | .hbm, ⟨61, _⟩ => ⟨S8x128x200, .i1⟩
  | .hbm, ⟨62, _⟩ => ⟨S8x128x200, .f32⟩
  | .hbm, ⟨63, _⟩ => ⟨S_, .f32⟩
  | .hbm, ⟨64, _⟩ => ⟨S8x128x200, .f32⟩
  | .hbm, ⟨65, _⟩ => ⟨S8x128x200, .f32⟩
  | .hbm, ⟨66, _⟩ => ⟨S8x128x200, .f32⟩
  | .hbm, ⟨67, _⟩ => ⟨S8x128x200, .f32⟩
  | .hbm, ⟨68, _⟩ => ⟨S_, .f32⟩
  | .hbm, ⟨69, _⟩ => ⟨S8x128, .f32⟩
  | .hbm, ⟨70, _⟩ => ⟨S8x128, .f32⟩
  | .hbm, ⟨71, _⟩ => ⟨S_, .f32⟩
  | .hbm, ⟨72, _⟩ => ⟨S_, .f32⟩
  | _, _ => ⟨S8x128x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_cst : Ref sig .tc := ⟨.hbm, 63, rfl⟩
abbrev main_call0_v14 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  bcast_S8x128x1_S8x128x512_0_1_2 : S8x128x1.BroadcastsInDim S8x128x512 (![0, 1, 2] : Fin 3 → Fin S8x128x512.rank)
  bcast_S_S8x200 : S_.BroadcastsInDim S8x200 (![] : Fin 0 → Fin S8x200.rank)
  bcast_S8x200_S8x200x1_0_1 : S8x200.BroadcastsInDim S8x200x1 (![0, 1] : Fin 2 → Fin S8x200x1.rank)
  bcast_S8x200x1_S8x200x512_0_1_2 : S8x200x1.BroadcastsInDim S8x200x512 (![0, 1, 2] : Fin 3 → Fin S8x200x512.rank)
  bcast_S8x200x512_S8x1x200x512_0_2_3 : S8x200x512.BroadcastsInDim S8x1x200x512 (![0, 2, 3] : Fin 3 → Fin S8x1x200x512.rank)
  bcast_S8x128x512_S8x128x1x512_0_1_3 : S8x128x512.BroadcastsInDim S8x128x1x512 (![0, 1, 3] : Fin 3 → Fin S8x128x1x512.rank)
  bcast_S8x1x200x512_S8x128x200x512_0_1_2_3 : S8x1x200x512.BroadcastsInDim S8x128x200x512 (![0, 1, 2, 3] : Fin 4 → Fin S8x128x200x512.rank)
  bcast_S8x128x1x512_S8x128x200x512_0_1_2_3 : S8x128x1x512.BroadcastsInDim S8x128x200x512 (![0, 1, 2, 3] : Fin 4 → Fin S8x128x200x512.rank)
  bcast_S_S8x128x200x512 : S_.BroadcastsInDim S8x128x200x512 (![] : Fin 0 → Fin S8x128x200x512.rank)
  reducesTo_S8x128x200x512_S8x128x200_d3 : S8x128x200x512.ReducesTo [3] S8x128x200
  h_S_ : 0 < S_.numel
  bcast_S8x200_S8x1x200_0_2 : S8x200.BroadcastsInDim S8x1x200 (![0, 2] : Fin 2 → Fin S8x1x200.rank)
  bcast_S8x1x200_S8x128x200_0_1_2 : S8x1x200.BroadcastsInDim S8x128x200 (![0, 1, 2] : Fin 3 → Fin S8x128x200.rank)
  bcast_S_S8x128x200 : S_.BroadcastsInDim S8x128x200 (![] : Fin 0 → Fin S8x128x200.rank)
  shapeCasts_S8x128x200_S8x128x200x1 : S8x128x200.ShapeCasts S8x128x200x1
  bcast_S_S8x128x200x1 : S_.BroadcastsInDim S8x128x200x1 (![] : Fin 0 → Fin S8x128x200x1.rank)
  bcast_S1_S1x1x1x1_3 : S1.BroadcastsInDim S1x1x1x1 (![3] : Fin 1 → Fin S1x1x1x1.rank)
  bcast_S1x1x1x1_S8x128x200x1_0_1_2_3 : S1x1x1x1.BroadcastsInDim S8x128x200x1 (![0, 1, 2, 3] : Fin 4 → Fin S8x128x200x1.rank)
  reducesTo_S8x128x200x1_S8x128x200_d3 : S8x128x200x1.ReducesTo [3] S8x128x200
  reducesTo_S8x128x200_S8x128_d2 : S8x128x200.ReducesTo [2] S8x128
  reducesTo_S8x128_S_d0_1 : S8x128.ReducesTo [0, 1] S_
  gather_S32000x512_S8x128x1_S8x128x512_2_0_n_n_0_2_1512_wf : GatherDims.WF S32000x512 S8x128x1 S8x128x512 [2] [0] [] [0] [] 2 ![1, 512]
  gather_S32000x512_S8x200x1_S8x200x512_2_0_n_n_0_2_1512_wf : GatherDims.WF S32000x512 S8x200x1 S8x200x512 [2] [0] [] [0] [] 2 ![1, 512]
  gather_S8x128x32000_S8x128x200x1_S8x128x200_n_2_01_01_2_3_111_wf : GatherDims.WF S8x128x32000 S8x128x200x1 S8x128x200 [] [2] [0, 1] [2] [0, 1] 3 ![1, 1, 1]

variable [Facts₀]

def gather_S32000x512_S8x128x1_S8x128x512_2_0_n_n_0_2_1512 : GatherDims S32000x512 S8x128x1 S8x128x512 where
  offsetDims := [2]
  collapsedSliceDims := [0]
  operandBatchingDims := []
  startIndicesBatchingDims := []
  startIndexMap := [0]
  indexVectorDim := 2
  sliceSizes := ![1, 512]
  wf := gather_S32000x512_S8x128x1_S8x128x512_2_0_n_n_0_2_1512_wf
def gather_S32000x512_S8x200x1_S8x200x512_2_0_n_n_0_2_1512 : GatherDims S32000x512 S8x200x1 S8x200x512 where
  offsetDims := [2]
  collapsedSliceDims := [0]
  operandBatchingDims := []
  startIndicesBatchingDims := []
  startIndexMap := [0]
  indexVectorDim := 2
  sliceSizes := ![1, 512]
  wf := gather_S32000x512_S8x200x1_S8x200x512_2_0_n_n_0_2_1512_wf
def gather_S8x128x32000_S8x128x200x1_S8x128x200_n_2_01_01_2_3_111 : GatherDims S8x128x32000 S8x128x200x1 S8x128x200 where
  offsetDims := []
  collapsedSliceDims := [2]
  operandBatchingDims := [0, 1]
  startIndicesBatchingDims := [0, 1]
  startIndexMap := [2]
  indexVectorDim := 3
  sliceSizes := ![1, 1, 1]
  wf := gather_S8x128x32000_S8x128x200x1_S8x128x200_n_2_01_01_2_3_111_wf

class Facts : Prop extends Facts₀ where

variable [Facts]
-- ==== Proof.Spec.lean ====
/-
  The loss both programs compute, as one function of plain families of extended reals.

  For a batch b, a position l and a bag entry n, with g = the masked gold embedding row (b, l) and w = the masked
  bag embedding row (b, n), both of length 512, and ε the number the reference's 32-bit word for 1e-6 denotes:

      dist(b, l, n) = √( Σ_e (w_e − g_e + ε)² ),
      row(b, l)     = mask(b, l) · Σ_n | dist(b, l, n) − p(b, l, n) |,        p = the probability at the bag's token,
      total         = Σ_b Σ_l row(b, l).

  |x| is written max x (−x), which is what the absolute value is on the extended reals.
-/
import Idealize.ShloMosaic.PureOps.Ideal
import Idealize.ShloMosaic.Lib.ValueIdx

noncomputable section

namespace Cert.LossSpec

open Idealize.ShloMosaic

/-- ε: the number the 32-bit pattern of the reference's additive constant denotes. -/
abbrev epsW : EReal := Ideal.ofBits .f32 0x358637BD#32

/-- Σ_e (w_e − g_e + ε)²: the squared shifted distance of two rows of length 512. -/
def sqDist (g w : Fin 512 → EReal) : EReal := ∑ e : Fin 512, (w e - g e + epsW) * (w e - g e + epsW)

/-- |√(sqDist g w) − p|, the absolute value written as a maximum. -/
def absDev (g w : Fin 512 → EReal) (p : EReal) : EReal :=
  max (Ideal.sqrt (sqDist g w) - p) (-(Ideal.sqrt (sqDist g w) - p))

/-- One (batch, position) term: the mask times the sum over the bag of the absolute deviations. -/
def rowLoss (mk : EReal) (g : Fin 512 → EReal) (w : Fin 200 → Fin 512 → EReal) (p : Fin 200 → EReal) : EReal :=
  mk * ∑ n : Fin 200, absDev g (w n) (p n)

/-- The whole loss: the sum over batches and positions. -/
def total (mk : Fin 8 → Fin 128 → EReal) (G : Fin 8 → Fin 128 → Fin 512 → EReal)
    (B : Fin 8 → Fin 200 → Fin 512 → EReal) (p : Fin 8 → Fin 128 → Fin 200 → EReal) : EReal :=
  ∑ b : Fin 8, ∑ l : Fin 128, rowLoss (mk b l) (G b l) (B b) (p b l)

end Cert.LossSpec

end
-- ==== Proof.RefValue.lean ====
/-
  The reference program's result as the specification's total.

  The program forms, for a batch b, a position l and a bag entry n, the squared shifted distance
  Σ_e (w_e − g_e + ε)² of the masked bag row (b, n) and the masked gold row (b, l), takes its square root, reads the
  probability at the bag's token, sums the absolute deviations over the bag, multiplies by the mask and sums over
  batches and positions. Read one stage at a time this is the specification's total, provided the probability read is
  the one at the token itself. That is where the two hypotheses enter: the program wraps a negative token by +32000,
  tests 0 ≤ token ≤ 31999, gathers with the start index clamped into [0, 31999], and returns a not-a-number pattern
  where the test fails. For a token in [0, 32000) the wrap keeps the token, the test holds (an and-reduction over an
  axis of size one is its single term), the clamp is the identity, and the signed reading of the word is its unsigned
  one.
-/
import proofs.«413012_j26250840113737_3_alg».proof.Proof.RefRead
import proofs.«413012_j26250840113737_3_alg».proof.Proof.Spec
import Idealize.ShloMosaic.Lib.ValueIdx
import Idealize.ShloMosaic.Lib.Affine
import Idealize.ShloMosaic.PureOps.Reduce
import Idealize.ShloMosaic.PureOps.Ideal.Laws

noncomputable section
namespace Cert.ReferenceIdeal.RefValue
open Idealize.ShloMosaic Cert.ReferenceIdeal Cert.ReferenceIdeal.PRead ValueIdx

/-- A 32-bit word whose signed value lies in [0, 32000) has that unsigned value. -/
theorem toNat_lt (w : BitVec 32) (h0 : 0 ≤ w.toInt) (h1 : w.toInt < 32000) : w.toNat < 32000 := by
  have hw := w.isLt
  rw [BitVec.toInt_eq_toNat_cond] at h0 h1
  by_cases h : 2 * w.toNat < 2 ^ 32
  · rw [if_pos h] at h1; omega
  · rw [if_neg h] at h0; omega

/-- A nonnegative word read signed and then as a natural number is the word read unsigned. -/
theorem toInt_toNat (w : BitVec 32) (h0 : 0 ≤ w.toInt) : w.toInt.toNat = w.toNat := by
  have hw := w.isLt
  rw [BitVec.toInt_eq_toNat_cond] at h0 ⊢
  by_cases h : 2 * w.toNat < 2 ^ 32
  · rw [if_pos h]; omega
  · rw [if_neg h] at h0; omega

/-! ## The index functions at coordinates -/

theorem idx28 (b : Fin 8) (l : Fin 128) (n : Fin 200) (e : Fin 512) :
    idx_main_v28 (ix3 b l n) e = ix4 b l n e :=
  funext fun a => Fin.ext (by match a with | ⟨0, _⟩ => rfl | ⟨1, _⟩ => rfl | ⟨2, _⟩ => rfl | ⟨3, _⟩ => rfl)

theorem idx22_20 (b : Fin 8) (l : Fin 128) (n : Fin 200) (e : Fin 512) :
    idx_main_v20 (idx_main_v22 (ix4 b l n e)) = ix3 b n e :=
  funext fun a => Fin.ext (by match a with | ⟨0, _⟩ => rfl | ⟨1, _⟩ => rfl | ⟨2, _⟩ => rfl)

theorem idx23_21 (b : Fin 8) (l : Fin 128) (n : Fin 200) (e : Fin 512) :
    idx_main_v21 (idx_main_v23 (ix4 b l n e)) = ix3 b l e :=
  funext fun a => Fin.ext (by match a with | ⟨0, _⟩ => rfl | ⟨1, _⟩ => rfl | ⟨2, _⟩ => rfl)

theorem idx35 (b : Fin 8) (l : Fin 128) (n : Fin 200) :
    idx_main_v35 (ix2 b l) n = ix3 b l n :=
  funext fun a => Fin.ext (by match a with | ⟨0, _⟩ => rfl | ⟨1, _⟩ => rfl | ⟨2, _⟩ => rfl)

theorem idx31_30 (b : Fin 8) (l : Fin 128) (n : Fin 200) :
    idx_main_v30 (idx_main_v31 (ix3 b l n)) = ix2 b n :=
  funext fun a => Fin.ext (by match a with | ⟨0, _⟩ => rfl | ⟨1, _⟩ => rfl)

/-! ## The squared shifted distance -/

/-- The stage summed over the embedding axis is the specification's squared distance of the two masked rows. -/
theorem v28_eq (gold : (⟨S8x128, .i32⟩ : BufTy).Contents (Elt Ideal)) (mk : (⟨S8x128, .f32⟩ : BufTy).Contents (Elt Ideal))
    (bow : (⟨S8x200, .i32⟩ : BufTy).Contents (Elt Ideal)) (bmk : (⟨S8x200, .f32⟩ : BufTy).Contents (Elt Ideal))
    (W : (⟨S32000x512, .f32⟩ : BufTy).Contents (Elt Ideal)) (b : Fin 8) (l : Fin 128) (n : Fin 200) :
    val_main_v28 (F := Ideal) gold mk bow bmk W (ix3 b l n)
      = Cert.LossSpec.sqDist (fun e => val_main_v9 (F := Ideal) gold mk W (ix3 b l e))
          (fun e => val_main_v19 (F := Ideal) bow bmk W (ix3 b n e)) := by
  rw [val_main_v28_apply, val_main_cst_3_apply]
  unfold Cert.LossSpec.sqDist
  rw [Ideal.ofBits_def, Ideal.ofBits_zero_f32, zero_add]
  refine Finset.sum_congr rfl fun e _ => ?_
  rw [idx28, val_main_v27_apply, val_main_v26_apply, val_main_v24_apply, val_main_v22_apply, val_main_v20_apply,
    val_main_v23_apply, val_main_v21_apply, val_main_v25_apply, val_main_cst_apply, idx22_20, idx23_21]
  rfl

/-! ## The gather of the probabilities -/

/-- The dimension numbers of the probabilities' gather: batch axes 0 and 1 on both sides, the vocabulary axis collapsed
    and indexed by the one-component start index. -/
abbrev gd : GatherDims S8x128x32000 S8x128x200x1 S8x128x200 :=
  gather_S8x128x32000_S8x128x200x1_S8x128x200_n_2_01_01_2_3_111

/-- Axis 0 of the operand is a batching axis: the batch coordinate. -/
theorem gd_ax0 (idx : IVec S8x128x200x1 32) (b : Fin 8) (l : Fin 128) (n : Fin 200) :
    gd.start (ix3 b l n) idx 0 + gd.batchCoord (ix3 b l n) 0 + gd.offCoord (ix3 b l n) 0 = b.val := by
  have hm : (0 : Fin 3) ∈ gd.operandBatchingDims := by decide
  rw [GatherDims.start_batching _ _ _ _ hm,
    GatherDims.offCoord_eq_zero _ _ _ (fun h => ((GatherDims.mem_sKept _ _).mp h).2 hm), Nat.zero_add, Nat.add_zero]
  unfold GatherDims.batchCoord
  rw [dif_pos hm]
  rfl

/-- Axis 1 likewise: the position coordinate. -/
theorem gd_ax1 (idx : IVec S8x128x200x1 32) (b : Fin 8) (l : Fin 128) (n : Fin 200) :
    gd.start (ix3 b l n) idx 1 + gd.batchCoord (ix3 b l n) 1 + gd.offCoord (ix3 b l n) 1 = l.val := by
  have hm : (1 : Fin 3) ∈ gd.operandBatchingDims := by decide
  rw [GatherDims.start_batching _ _ _ _ hm,
    GatherDims.offCoord_eq_zero _ _ _ (fun h => ((GatherDims.mem_sKept _ _).mp h).2 hm), Nat.zero_add, Nat.add_zero]
  unfold GatherDims.batchCoord
  rw [dif_pos hm]
  rfl

/-- Axis 2 is collapsed and indexed: the start index word at (b, l, n, 0), read signed and clamped into [0, 31999]. -/
theorem gd_ax2 (idx : IVec S8x128x200x1 32) (b : Fin 8) (l : Fin 128) (n : Fin 200) :
    gd.start (ix3 b l n) idx 2 + gd.batchCoord (ix3 b l n) 2 + gd.offCoord (ix3 b l n) 2
      = min (idx (ix4 b l n (0 : Fin 1))).toInt.toNat 31999 := by
  have hnb : (2 : Fin 3) ∉ gd.operandBatchingDims := by decide
  have hc : (2 : Fin 3) ∈ gd.collapsedSliceDims := by decide
  have hs : (2 : Fin 3) ∈ gd.startIndexMap := by decide
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hs]
  have hsi : gd.siIdx (ix3 b l n) ⟨List.idxOf (2 : Fin 3) gd.startIndexMap, List.idxOf_lt_length_iff.2 hs⟩
      = ix4 b l n (0 : Fin 1) := by
    funext c
    refine Fin.ext ?_
    match c with
    | ⟨0, _⟩ => rfl
    | ⟨1, _⟩ => rfl
    | ⟨2, _⟩ => rfl
    | ⟨3, _⟩ => rfl
  rw [hsi]
  rfl

/-- The operand index the probabilities' gather reads at (b, l, n). -/
theorem gather_coord (idx : IVec S8x128x200x1 32) (b : Fin 8) (l : Fin 128) (n : Fin 200) :
    gd.operandIdx (ix3 b l n) idx = ix3 b l ⟨min (idx (ix4 b l n (0 : Fin 1))).toInt.toNat 31999, by omega⟩ := by
  funext a
  refine Fin.ext ?_
  match a with
  | ⟨0, _⟩ => exact gd_ax0 idx b l n
  | ⟨1, _⟩ => exact gd_ax1 idx b l n
  | ⟨2, _⟩ => exact gd_ax2 idx b l n

/-! ## The wrapped index word and the in-range mask -/

theorem idx_call0_v5 (b : Fin 8) (l : Fin 128) (n : Fin 200) :
    idx_main_call0_v5 (ix4 b l n (0 : Fin 1)) = ix3 b l n := by
  funext a
  refine Fin.ext ?_
  have hb := b.isLt
  have hl := l.isLt
  have hn := n.isLt
  match a with
  | ⟨0, _⟩ => show (((b.val * 128 + l.val) * 200 + n.val) * 1 + 0) / 25600 = b.val; omega
  | ⟨1, _⟩ => show (((b.val * 128 + l.val) * 200 + n.val) * 1 + 0) / 200 % 128 = l.val; omega
  | ⟨2, _⟩ => show (((b.val * 128 + l.val) * 200 + n.val) * 1 + 0) % 200 = n.val; omega

/-- The bag tokens broadcast over the positions. -/
theorem v31_eq (bow : (⟨S8x200, .i32⟩ : BufTy).Contents (Elt Ideal)) (b : Fin 8) (l : Fin 128) (n : Fin 200) :
    val_main_v31 (F := Ideal) bow (ix3 b l n) = bow (ix2 b n) := by
  rw [val_main_v31_apply, val_main_v30_apply, idx31_30]

/-- A nonnegative token is not wrapped: the select on "token < 0" keeps it. -/
theorem v4_eq (bow : (⟨S8x200, .i32⟩ : BufTy).Contents (Elt Ideal)) (h0 : ∀ i, 0 ≤ (bow i).toInt)
    (b : Fin 8) (l : Fin 128) (n : Fin 200) :
    val_main_call0_v4 (F := Ideal) bow (ix3 b l n) = bow (ix2 b n) := by
  rw [val_main_call0_v4_apply, val_main_call0_v1_apply, val_main_call0_v0_apply, val_main_call0_c_apply, v31_eq]
  have hc : IntOp.cmpi .slt (bow (ix2 b n)) 0#32 = 0#1 := eq_zero_of_ne_one fun h => by
    have h2 := IntOp.cmpi_slt.mp h
    have h00 : (0#32 : BitVec 32).toInt = 0 := by decide
    have h3 := h0 (ix2 b n)
    omega
  rw [hc, select_zero]

theorem v5_eq (bow : (⟨S8x200, .i32⟩ : BufTy).Contents (Elt Ideal)) (h0 : ∀ i, 0 ≤ (bow i).toInt)
    (b : Fin 8) (l : Fin 128) (n : Fin 200) :
    val_main_call0_v5 (F := Ideal) bow (ix4 b l n (0 : Fin 1)) = bow (ix2 b n) := by
  rw [val_main_call0_v5_apply, idx_call0_v5, v4_eq bow h0]

/-- With the token in [0, 32000) both range tests hold. -/
theorem v11_eq (bow : (⟨S8x200, .i32⟩ : BufTy).Contents (Elt Ideal)) (h0 : ∀ i, 0 ≤ (bow i).toInt)
    (h1 : ∀ i, (bow i).toInt < 32000) (b : Fin 8) (l : Fin 128) (n : Fin 200) :
    val_main_call0_v11 (F := Ideal) bow (ix4 b l n (0 : Fin 1)) = 1#1 := by
  rw [val_main_call0_v11_apply, val_main_call0_v7_apply, val_main_call0_v10_apply, v5_eq bow h0,
    val_main_call0_v6_apply, val_main_call0_c_2_apply, val_main_call0_v9_apply, val_main_call0_v8_apply,
    val_main_call0_c_1_apply]
  refine IntOp.andi_eq_one.mpr ⟨IntOp.cmpi_sge.mpr ?_, IntOp.cmpi_sle.mpr ?_⟩
  · rw [show (0#32 : BitVec 32).toInt = 0 from by decide]; exact h0 _
  · rw [show (31999#32 : BitVec 32).toInt = 31999 from by decide]
    have h3 := h1 (ix2 b n)
    omega

/-- A fold over the one coordinate of an axis of size one is one application of the operation. -/
theorem fold_fin_one {α : Type} (op : α → α → α) [Std.Commutative op] [Std.Associative op] (init : α) {m : Nat}
    (hm : m = 1) (f : Fin m → α) :
    (Finset.univ : Finset (Fin m)).fold op init f = op (f ⟨0, by omega⟩) init := by
  subst hm
  rw [show (Finset.univ : Finset (Fin 1)) = {0} from rfl]
  exact Finset.fold_singleton

/-- The and-reduction over the size-one axis: the mask is on. -/
theorem v12_eq (bow : (⟨S8x200, .i32⟩ : BufTy).Contents (Elt Ideal)) (h0 : ∀ i, 0 ≤ (bow i).toInt)
    (h1 : ∀ i, (bow i).toInt < 32000) (b : Fin 8) (l : Fin 128) (n : Fin 200) :
    val_main_call0_v12 (F := Ideal) bow (ix3 b l n) = 1#1 := by
  have hR : S8x128x200x1.Reduces [3] S8x128x200 := by decide
  unfold val_main_call0_v12
  rw [Host.reduce_eq_fold_single IntOp.andi _ _ _ hR,
    fold_fin_one IntOp.andi _ (show S8x128x200x1.size 3 = 1 from rfl), Function.comp_apply]
  have hl : hR.lift (ix3 b l n) ⟨0, by decide⟩ = ix4 b l n (0 : Fin 1) :=
    funext fun a => Fin.ext (by match a with | ⟨0, _⟩ => rfl | ⟨1, _⟩ => rfl | ⟨2, _⟩ => rfl | ⟨3, _⟩ => rfl)
  rw [hl, v11_eq bow h0 h1, val_main_call0_c_3_apply]
  rfl

/-! ## The gathered probability, the rows and the total -/

/-- The gather reads the probability at the bag's token. -/
theorem v13_eq (P : (⟨S8x128x32000, .f32⟩ : BufTy).Contents (Elt Ideal)) (bow : (⟨S8x200, .i32⟩ : BufTy).Contents (Elt Ideal))
    (h0 : ∀ i, 0 ≤ (bow i).toInt) (h1 : ∀ i, (bow i).toInt < 32000) (b : Fin 8) (l : Fin 128) (n : Fin 200) :
    val_main_call0_v13 (F := Ideal) P bow (ix3 b l n)
      = P (ix3 b l ⟨(bow (ix2 b n)).toNat, toNat_lt _ (h0 _) (h1 _)⟩) := by
  unfold val_main_call0_v13
  show P (gd.operandIdx (ix3 b l n) (val_main_call0_v5 (F := Ideal) bow)) = _
  rw [gather_coord]
  have hk : (⟨min (val_main_call0_v5 (F := Ideal) bow (ix4 b l n (0 : Fin 1))).toInt.toNat 31999, by omega⟩ : Fin 32000)
      = ⟨(bow (ix2 b n)).toNat, toNat_lt _ (h0 _) (h1 _)⟩ := Fin.ext (by
    show min (val_main_call0_v5 (F := Ideal) bow (ix4 b l n (0 : Fin 1))).toInt.toNat 31999 = (bow (ix2 b n)).toNat
    rw [v5_eq bow h0, toInt_toNat _ (h0 _)]
    have h3 := toNat_lt _ (h0 (ix2 b n)) (h1 (ix2 b n))
    omega)
  exact congrArg (fun k => P (ix3 b l k)) hk

/-- The mask being on, the select returns the gathered probability. -/
theorem v32_eq (P : (⟨S8x128x32000, .f32⟩ : BufTy).Contents (Elt Ideal)) (bow : (⟨S8x200, .i32⟩ : BufTy).Contents (Elt Ideal))
    (h0 : ∀ i, 0 ≤ (bow i).toInt) (h1 : ∀ i, (bow i).toInt < 32000) (b : Fin 8) (l : Fin 128) (n : Fin 200) :
    val_main_v32 (F := Ideal) P bow (ix3 b l n)
      = P (ix3 b l ⟨(bow (ix2 b n)).toNat, toNat_lt _ (h0 _) (h1 _)⟩) := by
  rw [val_main_v32_apply, v12_eq bow h0 h1, select_one, v13_eq P bow h0 h1]

/-- |√(squared distance) − probability| at (b, l, n). -/
theorem v34_eq (P : (⟨S8x128x32000, .f32⟩ : BufTy).Contents (Elt Ideal)) (gold : (⟨S8x128, .i32⟩ : BufTy).Contents (Elt Ideal))
    (mk : (⟨S8x128, .f32⟩ : BufTy).Contents (Elt Ideal)) (bow : (⟨S8x200, .i32⟩ : BufTy).Contents (Elt Ideal))
    (bmk : (⟨S8x200, .f32⟩ : BufTy).Contents (Elt Ideal)) (W : (⟨S32000x512, .f32⟩ : BufTy).Contents (Elt Ideal))
    (h0 : ∀ i, 0 ≤ (bow i).toInt) (h1 : ∀ i, (bow i).toInt < 32000) (b : Fin 8) (l : Fin 128) (n : Fin 200) :
    val_main_v34 (F := Ideal) P gold mk bow bmk W (ix3 b l n)
      = Cert.LossSpec.absDev (fun e => val_main_v9 (F := Ideal) gold mk W (ix3 b l e))
          (fun e => val_main_v19 (F := Ideal) bow bmk W (ix3 b n e))
          (P (ix3 b l ⟨(bow (ix2 b n)).toNat, toNat_lt _ (h0 _) (h1 _)⟩)) := by
  rw [val_main_v34_apply, val_main_v33_apply, val_main_v29_apply, v28_eq, v32_eq P bow h0 h1]
  rfl

/-- The masked sum over the bag at (b, l). -/
theorem v36_eq (P : (⟨S8x128x32000, .f32⟩ : BufTy).Contents (Elt Ideal)) (gold : (⟨S8x128, .i32⟩ : BufTy).Contents (Elt Ideal))
    (mk : (⟨S8x128, .f32⟩ : BufTy).Contents (Elt Ideal)) (bow : (⟨S8x200, .i32⟩ : BufTy).Contents (Elt Ideal))
    (bmk : (⟨S8x200, .f32⟩ : BufTy).Contents (Elt Ideal)) (W : (⟨S32000x512, .f32⟩ : BufTy).Contents (Elt Ideal))
    (h0 : ∀ i, 0 ≤ (bow i).toInt) (h1 : ∀ i, (bow i).toInt < 32000) (b : Fin 8) (l : Fin 128) :
    val_main_v36 (F := Ideal) P gold mk bow bmk W (ix2 b l)
      = Cert.LossSpec.rowLoss (mk (ix2 b l)) (fun e => val_main_v9 (F := Ideal) gold mk W (ix3 b l e))
          (fun n e => val_main_v19 (F := Ideal) bow bmk W (ix3 b n e))
          (fun n => P (ix3 b l ⟨(bow (ix2 b n)).toNat, toNat_lt _ (h0 _) (h1 _)⟩)) := by
  rw [val_main_v36_apply, val_main_v35_apply, val_main_cst_4_apply, Ideal.ofBits_def, Ideal.ofBits_zero_f32, zero_add,
    Ideal.mulf_def]
  unfold Cert.LossSpec.rowLoss
  refine congrArg (mk (ix2 b l) * ·) (Finset.sum_congr rfl fun n _ => ?_)
  rw [idx35, v34_eq P gold mk bow bmk W h0 h1]

/-- With every bag token in [0, 32000), the reference's result is the specification's total over the masked embeddings as the program computes them and the probabilities at the bag tokens. -/
theorem ref_total (P : (⟨S8x128x32000, .f32⟩ : BufTy).Contents (Elt Ideal)) (gold : (⟨S8x128, .i32⟩ : BufTy).Contents (Elt Ideal)) (mk : (⟨S8x128, .f32⟩ : BufTy).Contents (Elt Ideal)) (bow : (⟨S8x200, .i32⟩ : BufTy).Contents (Elt Ideal)) (bmk : (⟨S8x200, .f32⟩ : BufTy).Contents (Elt Ideal)) (W : (⟨S32000x512, .f32⟩ : BufTy).Contents (Elt Ideal))
    (h0 : ∀ i, 0 ≤ (bow i).toInt) (h1 : ∀ i, (bow i).toInt < 32000) :
    val_main_v37 (F := Ideal) P gold mk bow bmk W ValueIdx.ix0
      = Cert.LossSpec.total (fun b l => mk (ix2 b l))
          (fun b l e => val_main_v9 (F := Ideal) gold mk W (ix3 b l e))
          (fun b n e => val_main_v19 (F := Ideal) bow bmk W (ix3 b n e))
          (fun b l n => P (ix3 b l ⟨(bow (ix2 b n)).toNat, toNat_lt _ (h0 _) (h1 _)⟩)) := by
  rw [val_main_v37_apply, val_main_cst_5_apply, Ideal.ofBits_def, Ideal.ofBits_zero_f32, zero_add, sum_idx2]
  unfold Cert.LossSpec.total
  exact Finset.sum_congr rfl fun b _ => Finset.sum_congr rfl fun l _ => v36_eq P gold mk bow bmk W h0 h1 b l

end Cert.ReferenceIdeal.RefValue
end
-- ==== Proof.PreFacts.lean ====
import proofs.«413012_j26250840113737_3_alg».proof.Pre_finite_inputs
import Idealize.ShloMosaic.PureOps.Ideal
import Idealize.ShloMosaic.Lib.ReduceAll
import Idealize.ShloMosaic.Lib.StableHlo.Predicate
import Idealize.ShloMosaic.Lib.ValueIdx

/-!
# The precondition, decoded

The precondition is printed as one function returning a rank-0 `i1` word: the conjunction of
"every entry of each float input has absolute value below `+∞`" (four inputs) and
"every entry of the integer input is, read signed, at least 0 and below 32000".
Here the claim that this word is 1 is turned into the entrywise facts the proof uses:
three of the float inputs are real-valued everywhere, and the integer input lies in `[0, 32000)`.
-/

noncomputable section
namespace Cert.PreFacts
open Idealize.ShloMosaic Cert.Pre_finite_inputs
variable [Cert.Pre_finite_inputs.Facts]

/-- What the precondition says of the inputs the proof uses. -/
structure Decoded (mk : FVec Ideal S8x128 .f32) (bow : IVec S8x200 32) (bmk : FVec Ideal S8x200 .f32) (W : FVec Ideal S32000x512 .f32) : Prop where
  mk_fin : ∀ i, ∃ r : ℝ, mk i = (r : EReal)
  bmk_fin : ∀ i, ∃ r : ℝ, bmk i = (r : EReal)
  W_fin : ∀ i, ∃ r : ℝ, W i = (r : EReal)
  bow_nonneg : ∀ i, 0 ≤ (bow i).toInt
  bow_lt : ∀ i, (bow i).toInt < 32000

/-- The rank-0 shape has a single index. -/
instance subsingleton_scalar_idx : Subsingleton S_.Idx := ⟨fun a b => funext fun d => d.elim0⟩

/-- The f32 pattern `0x7F800000` (sign 0, exponent all ones, fraction 0) denotes `+∞`. -/
theorem inf_pattern : Ideal.ofBits .f32 0x7F800000#32 = (⊤ : EReal) := by
  simp [Ideal.ofBits, Ideal.ieee]

/-- An extended real whose absolute value `max x (-x)` is strictly below `+∞` is a real:
    at `⊥` the absolute value is `⊤`, and at `⊤` it is `⊤`, neither of which is below `⊤`. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- One entry of the printed test `|x| < +∞`: the absolute value, compared with the broadcast
    infinity pattern. Where it is 1 the entry is a real. -/
theorem real_of_entry {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_pattern] at h'
  exact real_of_abs_lt_top _ h'

/-- One entry of the printed test `0 ≤ x` (signed), against the broadcast word 0. -/
theorem nonneg_of_entry {s : Shape} (hb : S_.BroadcastsInDim s (![] : Fin 0 → Fin s.rank)) (x : IVec s 32) (i : s.Idx)
    (h : cmpi .sge x (broadcastInDim s ![] hb (constantI S_ 32 0#32)) i = 1#1) : 0 ≤ (x i).toInt := by
  have h' : IntOp.cmpi .sge (x i) 0#32 = 1#1 := h
  rw [IntOp.cmpi_sge, show (0#32 : BitVec 32).toInt = 0 from by decide] at h'
  exact h'

/-- One entry of the printed test `x < 32000` (signed), against the broadcast word 32000. -/
theorem lt_of_entry {s : Shape} (hb : S_.BroadcastsInDim s (![] : Fin 0 → Fin s.rank)) (x : IVec s 32) (i : s.Idx)
    (h : cmpi .slt x (broadcastInDim s ![] hb (constantI S_ 32 32000#32)) i = 1#1) : (x i).toInt < 32000 := by
  have h' : IntOp.cmpi .slt (x i) 32000#32 = 1#1 := h
  rw [IntOp.cmpi_slt, show (32000#32 : BitVec 32).toInt = 32000 from by decide] at h'
  exact h'

/-- The precondition's word being 1 gives every conjunct, and each conjunct, a reduction by `and`
    over all axes, gives its test at every entry. -/
theorem decode (P : FVec Ideal S8x128x32000 .f32) (gold : IVec S8x128 32) (mk : FVec Ideal S8x128 .f32) (bow : IVec S8x200 32) (bmk : FVec Ideal S8x200 .f32) (W : FVec Ideal S32000x512 .f32)
    (h : Cert.Pre_finite_inputs.fn (F := Ideal) P gold mk bow bmk W = fun _ => 1#1) : Decoded mk bow bmk W := by
  have h0 := congrFun h ValueIdx.ix0
  dsimp only [fn, fn_part1] at h0
  simp only [Idealize.ShloMosaic.andi, IntOp.andi_eq_one] at h0
  obtain ⟨⟨⟨⟨⟨_, hmk⟩, hbmk⟩, hW⟩, hge⟩, hlt⟩ := h0
  exact
    { mk_fin := fun i => real_of_entry _ mk i (Host.reduce_andi_all _ _ _ _ _ hmk i)
      bmk_fin := fun i => real_of_entry _ bmk i (Host.reduce_andi_all _ _ _ _ _ hbmk i)
      W_fin := fun i => real_of_entry _ W i (Host.reduce_andi_all _ _ _ _ _ hW i)
      bow_nonneg := fun i => nonneg_of_entry _ bow i (Host.reduce_andi_all _ _ _ _ _ hge i)
      bow_lt := fun i => lt_of_entry _ bow i (Host.reduce_andi_all _ _ _ _ _ hlt i) }

end Cert.PreFacts
end
-- ==== Proof.KScratch.lean ====
/-
  What the kernel's body leaves in its accumulator and in its output block, as pure functions of the blocks it loads.

  The body adds, chunk by chunk (five chunks of 3200 vocabulary columns), the product of the probability chunk with the
  one-hot selector of the bag tokens into a 128 × 200 accumulator; at the first half of a batch's vocabulary the
  accumulator starts from zero, at the second half from what the first half left, and there the body also writes the
  output row: the mask times the row sums of |dist − accumulator|.
-/
import proofs.«413012_j26250840113737_3_alg».proof.Proof.Gen.KernelIdeal.Frame
import Idealize.ShloMosaic.Lib.Pipeline.Value

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- One trip of the chunk loop stores ONE piece, the whole accumulator: the trip's payload of the chunk it loads and of
    the accumulator as it finds it. -/
theorem trip_piece (𝒱 : Variants) (c : Dev nD) (bd : Option 𝒱.V) (i : grid0.Coords) (arg2 : Memref sig .tc .vmem S1x128x16000 .f32) (harg2 : arg2.IsWhole) (arg3 : Memref sig .tc .vmem S1x1x200 .i32) (harg3 : arg3.IsWhole) (arg4 : Memref sig .tc .vmem S1x128x512 .f32) (harg4 : arg4.IsWhole) (arg5 : Memref sig .tc .vmem S1x200x512 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S128x200 .f32) (harg8 : arg8.IsWhole)
    (v3 : Vec F S1x1x200 .i32) (X : BufTy.Contents (Elt F) arg2.view.ty) (k : Fin k0_t1_loop.trips) (f : BufTy.Contents (Elt F) arg8.view.ty) :
    tripL_k0_t1 (F := F) 𝒱 c bd i arg2 harg2 arg3 harg3 arg4 harg4 arg5 harg5 arg6 harg6 arg7 harg7 arg8 harg8 v3 X k f
      = [⟨Rect.unit (s := S128x200) ![0, 0] S128x200.size inb_S128x200_S128x200_0_0,
          k0_pay2 i v3 k (View.readAt (Elt F) arg2.view (Rect.unit (s := S1x128x16000) (k0_off1 k) S1x128x3200.size (k0_off1_inb k)).toLoadRect X)
            (View.readAt (Elt F) arg8.view (Rect.unit (s := S128x200) ![0, 0] S128x200.size inb_S128x200_S128x200_0_0).toLoadRect f)⟩] := by
  unfold tripL_k0_t1
  unfold trip_k0_t1
  rfl

/-- The accumulator after the first `k` chunks of the probability block `x0`, started from `a0`. -/
def accChain (i : grid0.Coords) (v3 : Vec F S1x1x200 .i32) (x0 : Vec F S1x128x16000 .f32) (a0 : Vec F S128x200 .f32) :
    ℕ → Vec F S128x200 .f32
  | 0 => a0
  | k + 1 =>
    if h : k < k0_t1_loop.trips then
      k0_pay2 i v3 ⟨k, h⟩ (View.ld x0 (Rect.unit (s := S1x128x16000) (k0_off1 ⟨k, h⟩) S1x128x3200.size (k0_off1_inb ⟨k, h⟩))) (accChain i v3 x0 a0 k)
    else accChain i v3 x0 a0 k

theorem accChain_succ (i : grid0.Coords) (v3 : Vec F S1x1x200 .i32) (x0 : Vec F S1x128x16000 .f32) (a0 : Vec F S128x200 .f32)
    (k : Fin k0_t1_loop.trips) :
    accChain i v3 x0 a0 (k.val + 1)
      = k0_pay2 i v3 k (View.ld x0 (Rect.unit (s := S1x128x16000) (k0_off1 k) S1x128x3200.size (k0_off1_inb k))) (accChain i v3 x0 a0 k.val) := by
  rw [accChain.eq_2]; exact dif_pos k.isLt

/-- What the accumulator reads after the loop's first `k` trips, whatever it held at loop entry (`G`): the chain from
    what `G` reads. -/
theorem read_pb (𝒱 : Variants) (c : Dev nD) (bd : Option 𝒱.V) (i : grid0.Coords) (arg2 : Memref sig .tc .vmem S1x128x16000 .f32) (harg2 : arg2.IsWhole) (arg3 : Memref sig .tc .vmem S1x1x200 .i32) (harg3 : arg3.IsWhole) (arg4 : Memref sig .tc .vmem S1x128x512 .f32) (harg4 : arg4.IsWhole) (arg5 : Memref sig .tc .vmem S1x200x512 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S128x200 .f32) (harg8 : arg8.IsWhole)
    (v3 : Vec F S1x1x200 .i32) (x0 : Vec F S1x128x16000 .f32) (G : BufTy.Contents (Elt F) arg8.view.ty) :
    ∀ k, k ≤ k0_t1_loop.trips →
      arg8.view.read (Elt F) (arg8.view.writes (Elt F) G (pb_k0_t1 (F := F) 𝒱 c bd i arg2 harg2 arg3 harg3 arg4 harg4 arg5 harg5 arg6 harg6 arg7 harg7 arg8 harg8 v3 (harg2.unread x0) G k))
        = accChain i v3 x0 (arg8.view.read (Elt F) G) k
  | 0, _ => rfl
  | k + 1, hk => by
    have hk' : k < k0_t1_loop.trips := hk
    have ih := read_pb 𝒱 c bd i arg2 harg2 arg3 harg3 arg4 harg4 arg5 harg5 arg6 harg6 arg7 harg7 arg8 harg8 v3 x0 G k (Nat.le_of_lt hk')
    rw [show k + 1 = (⟨k, hk'⟩ : Fin k0_t1_loop.trips).val + 1 from rfl, pb_k0_t1_succ, trip_piece, accChain_succ]
    rw [List.singleton_append, View.read_writes_eq_canon _ _ _ (fun y => ⟨_, List.mem_cons_self, View.mem_set_unit_zero hz2 inb_S128x200_S128x200_0_0 y⟩),
      View.canon_cons_unit_zero hz2]
    rw [View.readAt_eq_ld, View.readAt_eq_ld, harg2.read_unread, View.ld_unit_zero hz2, ih]

/-- Case A (first half of a batch's vocabulary): the accumulator is zeroed, then the five chunks are added. -/
theorem sout_A (c : Dev nD) (i : grid0.Coords) (arg2 : Memref sig .tc .vmem S1x128x16000 .f32) (harg2 : arg2.IsWhole) (arg3 : Memref sig .tc .vmem S1x1x200 .i32) (harg3 : arg3.IsWhole) (arg4 : Memref sig .tc .vmem S1x128x512 .f32) (harg4 : arg4.IsWhole) (arg5 : Memref sig .tc .vmem S1x200x512 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S128x200 .f32) (harg8 : arg8.IsWhole) (hc0 : cond0_0 i) (hc1 : ¬cond0_1 i)
    (x0 : Vec F S1x128x16000 .f32) (x1 : Vec F S1x1x200 .i32) (x2 : Vec F S1x128x512 .f32) (x3 : Vec F S1x200x512 .f32) (x4 : Vec F S1x1x128 .f32) :
    sout0_A_0 c i arg2 harg2 arg3 harg3 arg4 harg4 arg5 harg5 arg6 harg6 arg7 harg7 arg8 harg8 hc0 hc1 x0 x1 x2 x3 x4 = accChain i x1 x0 (k0_pay1 (F := F)) k0_t1_loop.trips := by
  unfold sout0_A_0
  rw [View.read_writes_of_cover VS0_0 VS0_0.junk arg8.view arg8.view.junk _ (scover0_A_0 c i arg2 harg2 arg3 harg3 arg4 harg4 arg5 harg5 arg6 harg6 arg7 harg7 arg8 harg8 hc0 hc1 x0 x1 x2 x3 x4)]
  unfold kernelRun0_A
  dsimp only
  rw [View.writes_append, View.readAt_eq_ld, harg3.read_unread, View.ld_unit_zero hz3]
  rw [read_pb _ c none i arg2 harg2 arg3 harg3 arg4 harg4 arg5 harg5 arg6 harg6 arg7 harg7 arg8 harg8 x1 x0 _ _ (le_refl _)]
  congr 1
  sl_unfold_words
  rw [View.read_writes_eq_canon _ _ _ (fun y => ⟨_, List.mem_singleton_self _, View.mem_set_unit_zero hz2 inb_S128x200_S128x200_0_0 y⟩),
    View.canon_unit_zero hz2]

/-- Case B (second half): the five chunks are added to what the first half left (`xs0`). -/
theorem sout_B (c : Dev nD) (i : grid0.Coords) (arg2 : Memref sig .tc .vmem S1x128x16000 .f32) (harg2 : arg2.IsWhole) (arg3 : Memref sig .tc .vmem S1x1x200 .i32) (harg3 : arg3.IsWhole) (arg4 : Memref sig .tc .vmem S1x128x512 .f32) (harg4 : arg4.IsWhole) (arg5 : Memref sig .tc .vmem S1x200x512 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S128x200 .f32) (harg8 : arg8.IsWhole) (hc0 : ¬cond0_0 i) (hc1 : cond0_1 i)
    (x0 : Vec F S1x128x16000 .f32) (x1 : Vec F S1x1x200 .i32) (x2 : Vec F S1x128x512 .f32) (x3 : Vec F S1x200x512 .f32) (x4 : Vec F S1x1x128 .f32) (xs0 : Vec F S128x200 .f32) :
    sout0_B_0 c i arg2 harg2 arg3 harg3 arg4 harg4 arg5 harg5 arg6 harg6 arg7 harg7 arg8 harg8 hc0 hc1 x0 x1 x2 x3 x4 xs0 = accChain i x1 x0 xs0 k0_t1_loop.trips := by
  unfold sout0_B_0
  rw [View.read_writes_of_cover VS0_0 VS0_0.junk arg8.view (harg8.unread xs0) _ (scover0_B_0 c i arg2 harg2 arg3 harg3 arg4 harg4 arg5 harg5 arg6 harg6 arg7 harg7 arg8 harg8 hc0 hc1 x0 x1 x2 x3 x4 xs0)]
  unfold kernelRun0_B
  dsimp only
  rw [View.readAt_eq_ld, harg3.read_unread, View.ld_unit_zero hz3]
  rw [read_pb _ c none i arg2 harg2 arg3 harg3 arg4 harg4 arg5 harg5 arg6 harg6 arg7 harg7 arg8 harg8 x1 x0 _ _ (le_refl _), harg8.read_unread]

/-- Case B's output row: the mask times the row sums of the absolute deviations, over the finished accumulator. -/
theorem out_B (c : Dev nD) (i : grid0.Coords) (arg2 : Memref sig .tc .vmem S1x128x16000 .f32) (harg2 : arg2.IsWhole) (arg3 : Memref sig .tc .vmem S1x1x200 .i32) (harg3 : arg3.IsWhole) (arg4 : Memref sig .tc .vmem S1x128x512 .f32) (harg4 : arg4.IsWhole) (arg5 : Memref sig .tc .vmem S1x200x512 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S128x200 .f32) (harg8 : arg8.IsWhole) (hc0 : ¬cond0_0 i) (hc1 : cond0_1 i)
    (x0 : Vec F S1x128x16000 .f32) (x1 : Vec F S1x1x200 .i32) (x2 : Vec F S1x128x512 .f32) (x3 : Vec F S1x200x512 .f32) (x4 : Vec F S1x1x128 .f32) (xs0 : Vec F S128x200 .f32) :
    out0_B_5 c i arg2 harg2 arg3 harg3 arg4 harg4 arg5 harg5 arg6 harg6 arg7 harg7 arg8 harg8 hc0 hc1 x0 x1 x2 x3 x4 xs0 = k0_pay3 (k0_pay4 x4) (k0_pay5 (accChain i x1 x0 xs0 k0_t1_loop.trips) x2 x3) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  rw [View.canon_unit_zero hz3]
  sl_unfold_words
  simp only [View.readAt_eq_ld, harg6.read_unread, harg4.read_unread, harg5.read_unread, harg3.read_unread,
    View.ld_unit_zero (S := S1x1x128) hz3, View.ld_unit_zero (S := S1x128x512) hz3, View.ld_unit_zero (S := S1x200x512) hz3,
    View.ld_unit_zero (S := S1x1x200) hz3, View.ld_unit_zero (S := S128x200) hz2]
  rw [read_pb _ c none i arg2 harg2 arg3 harg3 arg4 harg4 arg5 harg5 arg6 harg6 arg7 harg7 arg8 harg8 x1 x0 _ _ (le_refl _), harg8.read_unread]

end Cert.KernelIdeal.KVal

end
-- ==== Proof.KNames.lean ====
/-
  The kernel's grid is 8 batches × 2 vocabulary halves, the half innermost: point t is batch t / 2, half t % 2. At an even
  point the accumulator is zeroed and the first half's five chunks are added; at the odd point after it the second half's
  are added to that, and the output row of the batch is written. Here: names for the blocks a point loads, the finished
  accumulator of a batch, the row it writes, and that this row is what the frame's point-by-point contents hold at an odd
  point.
-/
import proofs.«413012_j26250840113737_3_alg».proof.Proof.KScratch

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The blocks point `t` loads, at their literal types: probabilities [1,128,16000], bag tokens [1,1,200], masked gold
    embeddings [1,128,512], masked bag embeddings [1,200,512], gold mask [1,1,128]. -/
abbrev pblk (c : Dev nD) (t : Fin cfg0.N) : Vec F S1x128x16000 .f32 := iblk m c 0 t
abbrev tblk (c : Dev nD) (t : Fin cfg0.N) : Vec F S1x1x200 .i32 := iblk m c 1 t
abbrev gblk (c : Dev nD) (t : Fin cfg0.N) : Vec F S1x128x512 .f32 := iblk m c 2 t
abbrev wblk (c : Dev nD) (t : Fin cfg0.N) : Vec F S1x200x512 .f32 := iblk m c 3 t
abbrev mblk (c : Dev nD) (t : Fin cfg0.N) : Vec F S1x1x128 .f32 := iblk m c 4 t

/-- The point before `t`. -/
abbrev prevPt (t : Fin cfg0.N) : Fin cfg0.N := ⟨t.val - 1, Nat.lt_of_le_of_lt (Nat.sub_le _ _) t.isLt⟩

/-- The accumulator after the first half's chunks, from zero. -/
def accHalf (c : Dev nD) (t : Fin cfg0.N) : Vec F S128x200 .f32 :=
  accChain (grid0.coords t) (tblk m c t) (pblk m c t) (k0_pay1 (F := F)) k0_t1_loop.trips

/-- The accumulator after both halves: the second half's chunks (point `t`) added to what the point before left. -/
def accFull (c : Dev nD) (t : Fin cfg0.N) : Vec F S128x200 .f32 :=
  accChain (grid0.coords t) (tblk m c t) (pblk m c t) (accHalf m c (prevPt t)) k0_t1_loop.trips

/-- The output row an odd point writes. -/
def rowOut (c : Dev nD) (t : Fin cfg0.N) : Vec F S1x1x128 .f32 :=
  k0_pay3 (k0_pay4 (mblk m c t)) (k0_pay5 (accFull m c t) (gblk m c t) (wblk m c t))

/-- At an even point the carried accumulator holds the first half's sum. -/
theorem scratch_even (c : Dev nD) (t : Fin cfg0.N) (h0 : t.val % 2 = 0) :
    (outsAt0 m c t.val t.isLt).2 = accHalf m c t := by
  have h1 : ¬t.val % 2 = 1 := by omega
  rw [outsAt0_A m c t h0 h1]
  dsimp only
  exact sout_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At an odd point the output's staging buffer holds the batch's row. -/
theorem out_odd (c : Dev nD) (t : Fin cfg0.N) (h1 : t.val % 2 = 1) :
    (outsAt0 m c t.val t.isLt).1 = rowOut m c t := by
  have h0 : ¬t.val % 2 = 0 := by omega
  have hp : (prevPt t).val % 2 = 0 := by show (t.val - 1) % 2 = 0; omega
  rw [outsAt0_B m c t h0 h1]
  dsimp only
  rw [out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
  rw [show (outsAt0 m c (t.val - 1) (Nat.lt_of_le_of_lt (Nat.sub_le _ _) t.isLt)).2 = accHalf m c (prevPt t) from scratch_even m c (prevPt t) hp]
  rfl

end Cert.KernelIdeal.KVal

end
-- ==== Proof.KFrame.lean ====
/-
  From the points' rows to the program's result. The output array [8,1,128] is written back once per batch, at the batch's
  odd point, one block (b, 0, 0) of extent [1,1,128]: so after the run its entry (b, 0, l) is entry l of the row the odd
  point of batch b wrote, and the program's result is the host's sum of that array over all three axes.
-/
import proofs.«413012_j26250840113737_3_alg».proof.Proof.KNames
import Idealize.ShloMosaic.Lib.StableHlo.Run

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The odd point of batch `b`. -/
abbrev oddPt (b : Fin 8) : Fin cfg0.N := ⟨2 * b.val + 1, by have h : cfg0.N = 16 := N_0; have := b.isLt; omega⟩

/-- The row index inside a block, from a position. -/
abbrev rowIx (l : Fin 128) : S1x1x128.Idx := fun a => match a with
  | ⟨0, _⟩ => (0 : Fin 1)
  | ⟨1, _⟩ => (0 : Fin 1)
  | ⟨2, _⟩ => l

/-- The output array after the run: entry (b, 0, l) is entry l of the row batch b's odd point wrote. -/
def outArr (c : Dev nD) : S8x1x128.Idx → Elt F .f32 := fun i =>
  rowOut m c (oddPt ⟨(i 0).val, (i 0).isLt⟩) (rowIx ⟨(i 2).val, (i 2).isLt⟩)

theorem rowOut_congr (c : Dev nD) {t t' : Fin cfg0.N} (ht : t = t') {y y' : S1x1x128.Idx} (hy : y = y') :
    rowOut m c t y = rowOut m c t' y' := by subst ht; subst hy; rfl

/-- The output window's block index at a point: the batch on axis 0, zero elsewhere. -/
theorem idx_out : ∀ t : Fin cfg0.N, win0_5.index t (0 : Fin 3) = t.val / 2 ∧ win0_5.index t (1 : Fin 3) = 0 ∧ win0_5.index t (2 : Fin 3) = 0 :=
  (by decide +kernel : ∀ t : Fin grid0.N, _)

/-- What a writing point writes back is its block of the array above. -/
theorem flushed_out (c : Dev nD) (t : Fin cfg0.N) (hf : (cfg0.win 5).flush t = true) :
    (dats m 0 c).flushed 5 t = ((cfg0.win 5).blk t).view.read (Elt F) (outArr m c) := by
  have h1 : t.val % 2 = 1 := (flush0_5 t).mp hf
  obtain ⟨e0, e1, e2⟩ := idx_out t
  show (cfg0.win 5).cut (grid0.coords t) ((dats m 0 c).after 5 t) = _
  rw [after0_5, out_odd m c t h1]
  funext y
  show rowOut m c t y = outArr m c (((cfg0.win 5).blk t).view.emb y)
  unfold outArr
  have hy0 : (y 0).val < 1 := (y 0).isLt
  have hy1 : (y 1).val < 1 := (y 1).isLt
  have a0 : ((((cfg0.win 5).blk t).view.emb y) 0).val = t.val / 2 := by
    show win0_5.index t (0 : Fin 3) * 1 + 1 * (y 0).val = _; omega
  have a2 : ((((cfg0.win 5).blk t).view.emb y) 2).val = (y 2).val := by
    show win0_5.index t (2 : Fin 3) * 128 + 1 * (y 2).val = _; omega
  refine rowOut_congr m c (Fin.ext ?_) (funext fun a => Fin.ext ?_)
  · show t.val = 2 * ((((cfg0.win 5).blk t).view.emb y) 0).val + 1
    omega
  · match a with
    | ⟨0, _⟩ => show (y 0).val = 0; omega
    | ⟨1, _⟩ => show (y 1).val = 0; omega
    | ⟨2, _⟩ => show (y 2).val = ((((cfg0.win 5).blk t).view.emb y) 2).val; omega

/-- An index of the array is in point `t`'s block iff each coordinate is in the block's range on its axis. -/
theorem mem_blk_out (t : Fin cfg0.N) (i : S8x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v22).slice (win0_5.rect t)).set ↔ _
  rw [View.set_slice_whole, Rect.mem_set_unit]
  exact Iff.rfl

/-- Every entry of the array is in the block its batch's odd point writes back. -/
theorem cover_out (i : S8x1x128.Idx) : ∃ t : Fin cfg0.N, (cfg0.win 5).flush t = true ∧ i ∈ ((cfg0.win 5).blk t).view.set := by
  have hi0 : (i 0).val < 8 := (i 0).isLt
  have hi1 : (i 1).val < 1 := (i 1).isLt
  have hi2 : (i 2).val < 128 := (i 2).isLt
  refine ⟨oddPt ⟨(i 0).val, hi0⟩, (flush0_5 _).mpr (by show (2 * (i 0).val + 1) % 2 = 1; omega), ?_⟩
  obtain ⟨e0, e1, e2⟩ := idx_out (oddPt ⟨(i 0).val, hi0⟩)
  have e0' : win0_5.index (oddPt ⟨(i 0).val, hi0⟩) (0 : Fin 3) = (i 0).val := by rw [e0]; show (2 * (i 0).val + 1) / 2 = _; omega
  rw [mem_blk_out]
  intro a
  match a with
  | ⟨0, _⟩ => show win0_5.index (oddPt ⟨(i 0).val, hi0⟩) (0 : Fin 3) * 1 ≤ (i 0).val ∧ (i 0).val < win0_5.index (oddPt ⟨(i 0).val, hi0⟩) (0 : Fin 3) * 1 + 1; omega
  | ⟨1, _⟩ => show win0_5.index (oddPt ⟨(i 0).val, hi0⟩) (1 : Fin 3) * 1 ≤ (i 1).val ∧ (i 1).val < win0_5.index (oddPt ⟨(i 0).val, hi0⟩) (1 : Fin 3) * 1 + 1; omega
  | ⟨2, _⟩ => show win0_5.index (oddPt ⟨(i 0).val, hi0⟩) (2 : Fin 3) * 128 ≤ (i 2).val ∧ (i 2).val < win0_5.index (oddPt ⟨(i 0).val, hi0⟩) (2 : Fin 3) * 128 + 128; omega

/-- The output array after the run. -/
theorem final_out (c : Dev nD) : (dats m 0 c).arrAt 5 cfg0.N = outArr m c :=
  (dats m 0 c).arrAt_eq_of_cover 5 (outArr m c) (flushed_out m c) cover_out

end Cert.KernelIdeal.KVal

end
-- ==== Proof.KRun.lean ====
/-
  The kernel program's run, read at its result: every weakly fair execution ends with the result buffer at the host's sum,
  over all three axes, of the output array the region leaves (KFrame), and with the six argument arrays unchanged.
-/
import proofs.«413012_j26250840113737_3_alg».proof.Proof.KFrame

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's result: the sum of the output array from the zero word. -/
def kres (c : Dev nD) : Buf (Elt F) ((c.tc : Thread nD τ).loc main_v23) :=
  Host.reduceAdd (outArr m c) (constant S_ .f32 0x00000000#32) reducesTo_S8x1x128_S_d0_1_2 h_S_

/-- The two host operations after the region leave the result at that sum. -/
theorem tail_eq (c : Dev nD) :
    Pipeline.afterTail₀ cfgs (dats m) 0 (V0 m) [hostOps1] c main_v23 = kres m c := by
  unfold Pipeline.afterTail₀
  show StableHlo.after hostOps1 _ (Proc.devRef .tc main_v23) = _
  after_results
  rw [show Pipeline.withArrays (cfgs 0).spec c (V0 m c) (fun w => (dats m 0 c).arrAt w (cfgs 0).N) (Proc.devRef .tc main_v22) = outArr m c from
    (Pipeline.withArrays_arr spec0 launch0.win.arr_inj c _ _ 5).trans (final_out m c)]
  rfl

/-- The run, read: the result at that sum, the arguments unchanged. -/
theorem run_value : θ_run defs (onTc (τ := τ) (main (F := F))) ⟨m, fun _ => 0, ρ⟩ (fun r => ∀ c : Dev nD,
      r.2.mem ((c.tc : Thread nD τ).loc main_v23) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v23 (Pipeline.mem_restRefs_of main_v23 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KVal

end
-- ==== Proof.LibOneAxisContraction.lean ====
/-
  A contraction over ONE axis, read at one entry of the result, is a plain sum over the contracted coordinate.

  A GENERAL lemma file (any shapes, any dimension numbers with a single contracting axis): a kernel's matmul into a
  zero accumulator and a reference's dot_general, at the ideal values, hold at each entry the sum, over the one
  contracted coordinate, of the products of the operands' entries, once one knows which entry of each operand sits at a
  given result index and contraction position — the two hypotheses `hL`, `hR` of the lemmas below, which a certificate
  proves per dimension-number record (axis by axis: off the contracted axis an operand index reads the result index, on
  it the contracted coordinate, by `contrEquiv1_symm_val`).
-/
import Idealize.ShloMosaic.Lib.ValueIdx
import Idealize.ShloMosaic.PureOps.Ideal.Laws

noncomputable section

namespace Cert.Dots

open Idealize.ShloMosaic Idealize.ShloMosaic.ValueIdx
open scoped BigOperators

/-- A contraction over ONE axis of extent `K`, read at a result index: once the two operand indices at contraction
    position `c` are known (`hL`, `hR`), the product is the sum over `c` of the operands' entries there. -/
theorem dotGeneral_apply_of {sl sr so : Shape} {φ₁ φ₂ : FTy} (d : DotDims sl sr so) (K : Nat) (hr : d.contr.rank = 1)
    (hs : d.contr.size ⟨0, by omega⟩ = K) (prec : Option ContractPrecision) (sched : HostSchedule)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    FloatOps.dotGeneral d prec sched lhs rhs j = ∑ c : Fin K, lhs (L c) * rhs (R c) := by
  rw [Ideal.dotGeneral_apply, ← Equiv.sum_comp (contrEquiv1 d K hr hs).symm]
  exact Finset.sum_congr rfl fun c _ => by rw [hL c, hR c]

/-- The same for a `tpu.matmul` into the zero accumulator. -/
theorem matmul_zero_apply_of {sl sr so : Shape} {φ₁ φ₂ : FTy} (d : DotDims sl sr so) (K : Nat) (hr : d.contr.rank = 1)
    (hs : d.contr.size ⟨0, by omega⟩ = K) (prec : Option ContractPrecision)
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]

end Cert.Dots

end
-- ==== Proof.KPay.lean ====
/-
  The kernel body's arithmetic read at an entry, at the ideal values.

  One chunk's payload adds to the accumulator's entry (l, n) the sum over the chunk's 3200 columns r of the probability at
  (l, r) times the selector's entry (r, n): the comparison "r = token n − chunk offset" on 32-bit words, as 0 or 1 (a change of
  float format is the identity, a matrix product into the zero accumulator is the plain sum over the contracted coordinate). The
  chunk offset word is 16000 · half + 3200 · chunk, without wrapping. The epilogue's payload at (l, n) is
  | sqrt(max(Σg² + Σw² − 2 g·w + 2ε(Σw − Σg) + c, 0)) − accumulator |, with g, w the gold row l and the bag row n (row sums as
  lane sums, the bag's sums transposed into a row and broadcast) and c the named constant; the output row at l is the mask at l
  times the sum over n of that.
-/
import proofs.«413012_j26250840113737_3_alg».proof.Proof.Gen.KernelIdeal.Skeleton
import proofs.«413012_j26250840113737_3_alg».proof.Proof.LibOneAxisContraction
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.KPay
open Idealize.ShloMosaic Cert.KernelIdeal Cert.KernelIdeal.Gen ValueIdx
open scoped BigOperators

/-- The 32-bit word the k-th chunk of vocabulary half (i 1) starts at, as the kernel computes it. -/
def offW (i : grid0.Coords) (k : Fin k0_t1_loop.trips) : BitVec 32 :=
  Scalar.addi (Scalar.muli (BitVec.ofNat 32 (i 1).val) 16000#32) (Scalar.muli (Scalar.addi 0#32 (Scalar.muli (Scf.iv 0#32 1#32 k) 1#32)) 3200#32)

theorem trips_eq : k0_t1_loop.trips = 5 := by decide

/-- It is 16000·(half) + 3200·k, with no wrap. -/
theorem offW_toNat (i : grid0.Coords) (k : Fin k0_t1_loop.trips) : (offW i k).toNat = 16000 * (i 1).val + 3200 * k.val := by
  have hi : (i 1).val < 2 := (i 1).isLt
  have hk : k.val < 5 := Nat.lt_of_lt_of_eq k.isLt trips_eq
  unfold offW Scalar.addi Scalar.muli IntOp.addi IntOp.muli Scf.iv
  simp only [BitVec.toNat_add, BitVec.toNat_mul, BitVec.toNat_ofNat]
  omega

/-- The chunk load's offsets, in closed form. -/
theorem off1_eq (k : Fin k0_t1_loop.trips) : k0_off1 k = ![0, 0, 3200 * k.val] := k0_off1_eq k

theorem pay1_apply (j : S128x200.Idx) : k0_pay1 (F := Ideal) j = 0 := by
  unfold k0_pay1
  rw [shapeCast_self]
  exact Ideal.ofBits_zero_f32

theorem pay4_apply (v16 : Vec Ideal S1x1x128 .f32) (l : Fin 128) : k0_pay4 (F := Ideal) v16 (ix1 l) = v16 (ix3 0 0 l) := by
  unfold k0_pay4
  refine shapeCast_apply v16 _ _ _ ?_
  rw [Shape.rowMajor_val_three, Shape.rowMajor_val_one]
  show (0 * 1 + 0) * 128 + l.val = l.val
  omega

/-! ### Sums over a row read at an entry, and the column forms -/

/-- The source index of a lane sum's e-th term at row p. -/
theorem lift_ix1 {a b : Nat} (h : (⟨2, ![a, b]⟩ : Shape).Reduces [1] ⟨1, ![a]⟩) (p : Fin a) (e : Fin b) :
    h.lift (ix1 p) e = ix2 p e := by
  funext c
  refine Fin.ext ?_
  match c with
  | ⟨0, _⟩ => rfl
  | ⟨1, _⟩ => rfl

/-- A sum over the lanes of a matrix, read at a row: the sum of the row's entries. -/
theorem rowSum_apply {a b : Nat} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ x 0x00000000#32 h hφ hacc (ix1 p) = ∑ e : Fin b, x (ix2 p e) := by
  refine (Ideal.multiReduction_add_single x 0x00000000#32 h hφ hacc (ix1 p)).trans ?_
  exact Finset.sum_congr rfl fun e _ => congrArg x (lift_ix1 h p e)

theorem pay3_apply (v17 : FVec Ideal S128 .f32) (v49 : FVec Ideal S128x200 .f32) (l : Fin 128) :
    k0_pay3 (F := Ideal) v17 v49 (ix3 0 0 l) = v17 (ix1 l) * ∑ n : Fin 200, v49 (ix2 l n) := by
  unfold k0_pay3
  refine (shapeCast_apply _ shapeCasts_S128_S1x1x128 (ix3 (0 : Fin 1) (0 : Fin 1) l) (ix1 l) ?_).trans ?_
  · rw [Shape.rowMajor_val_three, Shape.rowMajor_val_one]
    show l.val = (0 * 1 + 0) * 128 + l.val
    omega
  · rw [mulf_apply]
    exact congrArg (v17 (ix1 l) * ·) (rowSum_apply v49 reduces_S128x200_S128 _ _ l)

/-- A vector viewed as a column: entry (p, u) is the vector's entry p. -/
theorem shapeCast_a_a1_apply {a : ℕ} {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column broadcast along the lanes: entry (p, c) is the column's entry p. -/
theorem broadcastTo_a1_ab_apply {a b : ℕ} {α : Type} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two matrix products -/

theorem oh_lhs_0 (j : S128x200.Idx) (q : dot_S128x3200_S3200x200_S128x200_1_0_0_1_n_n.contr.Idx) :
    (dot_S128x3200_S3200x200_S128x200_1_0_0_1_n_n.lhsIdx j q 0).val = (j 0).val := rfl
theorem oh_lhs_1 (j : S128x200.Idx) (q : dot_S128x3200_S3200x200_S128x200_1_0_0_1_n_n.contr.Idx) :
    (dot_S128x3200_S3200x200_S128x200_1_0_0_1_n_n.lhsIdx j q 1).val = (q ⟨0, by decide⟩).val :=
  dot_S128x3200_S3200x200_S128x200_1_0_0_1_n_n.lhsIdx_val_of_single rfl j q
theorem oh_rhs_0 (j : S128x200.Idx) (q : dot_S128x3200_S3200x200_S128x200_1_0_0_1_n_n.contr.Idx) :
    (dot_S128x3200_S3200x200_S128x200_1_0_0_1_n_n.rhsIdx j q 0).val = (q ⟨0, by decide⟩).val :=
  dot_S128x3200_S3200x200_S128x200_1_0_0_1_n_n.rhsIdx_val_of_single rfl j q
theorem oh_rhs_1 (j : S128x200.Idx) (q : dot_S128x3200_S3200x200_S128x200_1_0_0_1_n_n.contr.Idx) :
    (dot_S128x3200_S3200x200_S128x200_1_0_0_1_n_n.rhsIdx j q 1).val = (j 1).val := rfl

/-- The two matrix products at an entry. -/
theorem onehot_matmul_apply (lhs : FVec Ideal S128x3200 .bf16) (rhs : FVec Ideal S3200x200 .bf16) (l : Fin 128) (n : Fin 200) :
    matmul dot_S128x3200_S3200x200_S128x200_1_0_0_1_n_n none lhs rhs (constant S128x200 .f32 0x00000000#32) (ix2 l n)
      = ∑ r : Fin 3200, lhs (ix2 l r) * rhs (ix2 r n) := by
  refine Cert.Dots.matmul_zero_apply_of dot_S128x3200_S3200x200_S128x200_1_0_0_1_n_n 3200 rfl rfl none lhs rhs (ix2 l n)
    (fun r => ix2 l r) (fun r => ix2 r n) (fun c => ?_) (fun c => ?_)
  · funext a
    refine Fin.ext ?_
    match a with
    | ⟨0, _⟩ => exact oh_lhs_0 _ _
    | ⟨1, _⟩ => exact (oh_lhs_1 _ _).trans (contrEquiv1_symm_val _ 3200 rfl rfl c)
  · funext a
    refine Fin.ext ?_
    match a with
    | ⟨0, _⟩ => exact (oh_rhs_0 _ _).trans (contrEquiv1_symm_val _ 3200 rfl rfl c)
    | ⟨1, _⟩ => exact oh_rhs_1 _ _

theorem gr_lhs_0 (j : S128x200.Idx) (q : dot_S128x512_S200x512_S128x200_1_1_0_0_n_n.contr.Idx) :
    (dot_S128x512_S200x512_S128x200_1_1_0_0_n_n.lhsIdx j q 0).val = (j 0).val := rfl
theorem gr_lhs_1 (j : S128x200.Idx) (q : dot_S128x512_S200x512_S128x200_1_1_0_0_n_n.contr.Idx) :
    (dot_S128x512_S200x512_S128x200_1_1_0_0_n_n.lhsIdx j q 1).val = (q ⟨0, by decide⟩).val :=
  dot_S128x512_S200x512_S128x200_1_1_0_0_n_n.lhsIdx_val_of_single rfl j q
theorem gr_rhs_0 (j : S128x200.Idx) (q : dot_S128x512_S200x512_S128x200_1_1_0_0_n_n.contr.Idx) :
    (dot_S128x512_S200x512_S128x200_1_1_0_0_n_n.rhsIdx j q 0).val = (j 1).val := rfl
theorem gr_rhs_1 (j : S128x200.Idx) (q : dot_S128x512_S200x512_S128x200_1_1_0_0_n_n.contr.Idx) :
    (dot_S128x512_S200x512_S128x200_1_1_0_0_n_n.rhsIdx j q 1).val = (q ⟨0, by decide⟩).val :=
  dot_S128x512_S200x512_S128x200_1_1_0_0_n_n.rhsIdx_val_of_single rfl j q

theorem gram_matmul_apply (lhs : FVec Ideal S128x512 .f32) (rhs : FVec Ideal S200x512 .f32) (l : Fin 128) (n : Fin 200) :
    matmul dot_S128x512_S200x512_S128x200_1_1_0_0_n_n (some .fp32) lhs rhs (constant S128x200 .f32 0x00000000#32) (ix2 l n)
      = ∑ e : Fin 512, lhs (ix2 l e) * rhs (ix2 n e) := by
  refine Cert.Dots.matmul_zero_apply_of dot_S128x512_S200x512_S128x200_1_1_0_0_n_n 512 rfl rfl (some .fp32) lhs rhs (ix2 l n)
    (fun e => ix2 l e) (fun e => ix2 n e) (fun c => ?_) (fun c => ?_)
  · funext a
    refine Fin.ext ?_
    match a with
    | ⟨0, _⟩ => exact gr_lhs_0 _ _
    | ⟨1, _⟩ => exact (gr_lhs_1 _ _).trans (contrEquiv1_symm_val _ 512 rfl rfl c)
  · funext a
    refine Fin.ext ?_
    match a with
    | ⟨0, _⟩ => exact gr_rhs_0 _ _
    | ⟨1, _⟩ => exact (gr_rhs_1 _ _).trans (contrEquiv1_symm_val _ 512 rfl rfl c)

/-! ### The payloads -/

/-- The id row [1,1,200] read as a vector. -/
theorem ids_apply {α : Type} (v3 : S1x1x200.Idx → α) (n : Fin 200) :
    shapeCast S200 v3 shapeCasts_S1x1x200_S200 (ix1 n) = v3 (ix3 0 0 n) :=
  shapeCast_apply v3 _ _ _ (by
    rw [Shape.rowMajor_val_three, Shape.rowMajor_val_one]
    show (0 * 1 + 0) * 200 + n.val = n.val
    omega)

/-- One trip's payload at an entry: the accumulator there plus the chunk's product with the selector column. -/
theorem pay2_apply (i : grid0.Coords) (v3 : Vec Ideal S1x1x200 .i32) (k : Fin k0_t1_loop.trips) (v25 : Vec Ideal S1x128x3200 .f32) (v29 : Vec Ideal S128x200 .f32) (l : Fin 128) (n : Fin 200) :
    k0_pay2 (F := Ideal) i v3 k v25 v29 (ix2 l n)
      = v29 (ix2 l n) + ∑ r : Fin 3200, v25 (ix3 0 l r)
          * ((((IntOp.cmpi .eq (BitVec.ofNat 32 r.val) (v3 (ix3 0 0 n) - offW i k)).setWidth 32).toInt : ℝ) : EReal) := by
  unfold k0_pay2
  rw [shapeCast_self, addf_apply]
  refine congrArg (v29 (ix2 l n) + ·) ?_
  refine (onehot_matmul_apply _ _ l n).trans (Finset.sum_congr rfl fun r _ => ?_)
  rw [truncf_apply, truncf_apply, shapeCast_1ab_ab_apply, sitofp_apply, extui_apply]
  show v25 (ix3 0 l r) * FloatOps.sitofp (F := Ideal) .f32
      ((IntOp.cmpi .eq (iota .tc S3200x200 32 [0] iota_S3200x200_d0_w32 (ix2 r n))
        (broadcastTo S3200x200 _ broadcasts_S1x200_S3200x200 (ix2 r n))).setWidth 32) = _
  rw [iota_single_apply, broadcastTo_1b_ab_apply, shapeCast_a_1a_apply]
  show v25 (ix3 0 l r) * FloatOps.sitofp (F := Ideal) .f32
      ((IntOp.cmpi .eq (BitVec.ofNat 32 r.val)
        (shapeCast S200 v3 shapeCasts_S1x1x200_S200 (ix1 n) - offW i k)).setWidth 32) = _
  rw [ids_apply]
  rfl

/-- The sum over a row's lanes, kept as a column and broadcast along the second axis. -/
theorem colSum_apply (x : FVec Ideal S128x512 .f32) (hφ : FKind.Formats .f32)
    (hacc : @Eq (BitVec (FTy.bits .f32)) 0x00000000#32 0x00000000#32) (l : Fin 128) (n : Fin 200) :
    broadcastTo S128x200 (shapeCast S128x1 (multiReduction (F := Ideal) .add [1] S128 x 0x00000000#32 reduces_S128x512_S128 hφ hacc)
        shapeCasts_S128_S128x1) broadcasts_S128x1_S128x200 (ix2 l n)
      = ∑ e : Fin 512, x (ix2 l e) := by
  rw [broadcastTo_a1_ab_apply, shapeCast_a_a1_apply]
  exact rowSum_apply x _ _ _ l

/-- The sum over a row's lanes, kept as a column, transposed to a row and broadcast along the first axis. -/
theorem rowSumT_apply (y : FVec Ideal S200x512 .f32) (hφ : FKind.Formats .f32)
    (hacc : @Eq (BitVec (FTy.bits .f32)) 0x00000000#32 0x00000000#32) (l : Fin 128) (n : Fin 200) :
    broadcastTo S128x200 (transpose S1x200 [1, 0] (shapeCast S200x1
        (multiReduction (F := Ideal) .add [1] S200 y 0x00000000#32 reduces_S200x512_S200 hφ hacc) shapeCasts_S200_S200x1)
        transposes_S200x1_p1_0_S1x200) broadcasts_S1x200_S128x200 (ix2 l n)
      = ∑ e : Fin 512, y (ix2 n e) := by
  rw [broadcastTo_1b_ab_apply, transpose_ix2_apply, shapeCast_a_a1_apply]
  exact rowSum_apply y _ _ _ n

/-- The named constant's value. -/
theorem eps_sq_eq : Named.named (F := Ideal) κ "e_eps_sq" (φ := .f32) 0x300CBCCC#32
    = ((77371252064649 / 151115727451828646838272 : ℝ) : EReal) :=
  IdealRules.named_const.ideal_named_scalar _ _ _ _ rfl

theorem absf_ap {s : Shape} {φ : FTy} (x : FVec Ideal s φ) (j : s.Idx) : absf x j = max (x j) (-(x j)) := rfl
theorem sqrt_ap {s : Shape} {φ : FTy} (x : FVec Ideal s φ) (j : s.Idx) : sqrt x j = Ideal.sqrt (x j) := rfl

/-- The kernel's expanded squared distance of two rows, clamped at zero. -/
def expanded (g w : Fin 512 → EReal) : EReal :=
  max (((((∑ e : Fin 512, g e * g e) + (∑ e : Fin 512, w e * w e)) - Ideal.ofBits .f32 0x40000000#32 * (∑ e : Fin 512, g e * w e))
        + Ideal.ofBits .f32 0x360637BD#32 * ((∑ e : Fin 512, w e) - (∑ e : Fin 512, g e)))
        + (((77371252064649 / 151115727451828646838272 : ℝ)) : EReal))
      (Ideal.ofBits .f32 0x00000000#32)

theorem pay5_apply (v11 : Vec Ideal S128x200 .f32) (v12 : Vec Ideal S1x128x512 .f32) (v14 : Vec Ideal S1x200x512 .f32) (l : Fin 128) (n : Fin 200) :
    k0_pay5 (F := Ideal) v11 v12 v14 (ix2 l n)
      = max (Ideal.sqrt (expanded (fun e => v12 (ix3 0 l e)) (fun e => v14 (ix3 0 n e))) - v11 (ix2 l n))
            (-(Ideal.sqrt (expanded (fun e => v12 (ix3 0 l e)) (fun e => v14 (ix3 0 n e))) - v11 (ix2 l n))) := by
  have hg : ∀ e : Fin 512, shapeCast S128x512 v12 shapeCasts_S1x128x512_S128x512 (ix2 l e) = v12 (ix3 0 l e) :=
    fun e => shapeCast_1ab_ab_apply v12 _ l e
  have hw : ∀ e : Fin 512, shapeCast S200x512 v14 shapeCasts_S1x200x512_S200x512 (ix2 n e) = v14 (ix3 0 n e) :=
    fun e => shapeCast_1ab_ab_apply v14 _ n e
  unfold k0_pay5 expanded
  simp only [absf_ap, sqrt_ap, subf_apply, maximumf_apply, addf_apply, mulf_apply, broadcast_apply, gram_matmul_apply, hg, hw,
    eps_sq_eq]
  rw [colSum_apply, colSum_apply, rowSumT_apply, rowSumT_apply]
  simp only [mulf_apply, hg, hw]
  rfl

end Cert.KernelIdeal.KPay
end
-- ==== Proof.KBlocks.lean ====
/-
  Where each block a grid point loads sits in its array. The grid is 8 batches × 2 vocabulary halves, the half innermost:
  point t is batch t / 2, half t % 2. Every input window's block index on the batch axis is the batch; the probability
  window's block index on the vocabulary axis is the half, so its block holds columns 16000 · (t % 2) … of the batch's
  rows; the other windows take their whole batch slice. A block's entry is therefore the array's entry at
  (block index × block extent + coordinate inside the block) on each axis.
-/
import proofs.«413012_j26250840113737_3_alg».proof.Proof.KNames
import Idealize.ShloMosaic.Lib.ValueIdx
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F] [Named F]

variable (m : (ℓ : Loc nD τ sig) → Buf (Elt F) ℓ)

/-- The batch of a grid point. -/
abbrev batchOf (t : Fin cfg0.N) : Fin 8 := ⟨t.val / 2, by have := t.isLt; have : cfg0.N = 16 := N_0; omega⟩

/-- The grid's two coordinates of point `t`: batch `t / 2`, half `t % 2` (decided over the sixteen points). -/
theorem coords_val (t : Fin cfg0.N) : ((grid0.coords t) 0).val = t.val / 2 ∧ ((grid0.coords t) 1).val = t.val % 2 :=
  (by decide +kernel : ∀ t : Fin grid0.N, ((grid0.coords t) 0).val = t.val / 2 ∧ ((grid0.coords t) 1).val = t.val % 2) t

/-- The printed index maps, decided once over the grid: the probability window's block index is (batch, 0, half). -/
theorem idx_probs : ∀ t : Fin cfg0.N, win0_0.index t (0 : Fin 3) = t.val / 2 ∧ win0_0.index t (1 : Fin 3) = 0
    ∧ win0_0.index t (2 : Fin 3) = t.val % 2 :=
  (by decide +kernel : ∀ t : Fin grid0.N, _)

/-- The bag-token window's block index is (batch, 0, 0). -/
theorem idx_tokens : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- The gold-embedding window's block index is (batch, 0, 0). -/
theorem idx_gold : ∀ t : Fin cfg0.N, win0_2.index t (0 : Fin 3) = t.val / 2 ∧ win0_2.index t (1 : Fin 3) = 0
    ∧ win0_2.index t (2 : Fin 3) = 0 :=
  (by decide +kernel : ∀ t : Fin grid0.N, _)

/-- The bag-embedding window's block index is (batch, 0, 0). -/
theorem idx_bag : ∀ t : Fin cfg0.N, win0_3.index t (0 : Fin 3) = t.val / 2 ∧ win0_3.index t (1 : Fin 3) = 0
    ∧ win0_3.index t (2 : Fin 3) = 0 :=
  (by decide +kernel : ∀ t : Fin grid0.N, _)

/-- The gold-mask window's block index is (batch, 0, 0). -/
theorem idx_mask : ∀ t : Fin cfg0.N, win0_4.index t (0 : Fin 3) = t.val / 2 ∧ win0_4.index t (1 : Fin 3) = 0
    ∧ win0_4.index t (2 : Fin 3) = 0 :=
  (by decide +kernel : ∀ t : Fin grid0.N, _)

/-- Each block's entry is its array's entry at the block's place: batch t / 2 on axis 0, and for the probabilities the half's 16000 columns on axis 2. -/
theorem pblk_apply (c : Dev nD) (t : Fin cfg0.N) (l : Fin 128) (r : Fin 16000) :
    pblk m c t (ix3 0 l r) = (V m c main_arg0 : S8x128x32000.Idx → Elt F .f32) (ix3 (batchOf t) l ⟨16000 * (t.val % 2) + r.val, by have := r.isLt; omega⟩) := by
  obtain ⟨e0, e1, e2⟩ := idx_probs t
  show V m c main_arg0 (((cfg0.win 0).blk t).view.emb (ix3 0 l r)) = _
  refine congrArg _ (funext fun a => Fin.ext ?_)
  match a with
  | ⟨0, _⟩ => show win0_0.index t (0 : Fin 3) * 1 + 1 * 0 = t.val / 2; omega
  | ⟨1, _⟩ => show win0_0.index t (1 : Fin 3) * 128 + 1 * l.val = l.val; omega
  | ⟨2, _⟩ => show win0_0.index t (2 : Fin 3) * 16000 + 1 * r.val = 16000 * (t.val % 2) + r.val; omega

theorem tblk_apply (c : Dev nD) (t : Fin cfg0.N) (n : Fin 200) :
    tblk m c t (ix3 0 0 n) = (V m c main_v20 : S8x1x200.Idx → Elt F .i32) (ix3 (batchOf t) 0 n) := by
  obtain ⟨e0, e1, e2⟩ := idx_tokens t
  show V m c main_v20 (((cfg0.win 1).blk t).view.emb (ix3 0 0 n)) = _
  refine congrArg _ (funext fun a => Fin.ext ?_)
  match a with
  | ⟨0, _⟩ => show win0_1.index t (0 : Fin 3) * 1 + 1 * 0 = t.val / 2; omega
  | ⟨1, _⟩ => show win0_1.index t (1 : Fin 3) * 1 + 1 * 0 = 0; omega
  | ⟨2, _⟩ => show win0_1.index t (2 : Fin 3) * 200 + 1 * n.val = n.val; omega

theorem gblk_apply (c : Dev nD) (t : Fin cfg0.N) (l : Fin 128) (e : Fin 512) :
    gblk m c t (ix3 0 l e) = (V m c main_v9 : S8x128x512.Idx → Elt F .f32) (ix3 (batchOf t) l e) := by
  obtain ⟨e0, e1, e2⟩ := idx_gold t
  show V m c main_v9 (((cfg0.win 2).blk t).view.emb (ix3 0 l e)) = _
  refine congrArg _ (funext fun a => Fin.ext ?_)
  match a with
  | ⟨0, _⟩ => show win0_2.index t (0 : Fin 3) * 1 + 1 * 0 = t.val / 2; omega
  | ⟨1, _⟩ => show win0_2.index t (1 : Fin 3) * 128 + 1 * l.val = l.val; omega
  | ⟨2, _⟩ => show win0_2.index t (2 : Fin 3) * 512 + 1 * e.val = e.val; omega

theorem wblk_apply (c : Dev nD) (t : Fin cfg0.N) (n : Fin 200) (e : Fin 512) :
    wblk m c t (ix3 0 n e) = (V m c main_v19 : S8x200x512.Idx → Elt F .f32) (ix3 (batchOf t) n e) := by
  obtain ⟨e0, e1, e2⟩ := idx_bag t
  show V m c main_v19 (((cfg0.win 3).blk t).view.emb (ix3 0 n e)) = _
  refine congrArg _ (funext fun a => Fin.ext ?_)
  match a with
  | ⟨0, _⟩ => show win0_3.index t (0 : Fin 3) * 1 + 1 * 0 = t.val / 2; omega
  | ⟨1, _⟩ => show win0_3.index t (1 : Fin 3) * 200 + 1 * n.val = n.val; omega
  | ⟨2, _⟩ => show win0_3.index t (2 : Fin 3) * 512 + 1 * e.val = e.val; omega

theorem mblk_apply (c : Dev nD) (t : Fin cfg0.N) (l : Fin 128) :
    mblk m c t (ix3 0 0 l) = (V m c main_v21 : S8x1x128.Idx → Elt F .f32) (ix3 (batchOf t) 0 l) := by
  obtain ⟨e0, e1, e2⟩ := idx_mask t
  show V m c main_v21 (((cfg0.win 4).blk t).view.emb (ix3 0 0 l)) = _
  refine congrArg _ (funext fun a => Fin.ext ?_)
  match a with
  | ⟨0, _⟩ => show win0_4.index t (0 : Fin 3) * 1 + 1 * 0 = t.val / 2; omega
  | ⟨1, _⟩ => show win0_4.index t (1 : Fin 3) * 1 + 1 * 0 = 0; omega
  | ⟨2, _⟩ => show win0_4.index t (2 : Fin 3) * 128 + 1 * l.val = l.val; omega

end Cert.KernelIdeal.KVal

end
-- ==== Proof.OneHot.lean ====
/-
  Picking one entry of a row of 32000 with a one-hot selector, chunk by chunk.

  The selector's entry for row number r of a chunk at offset off, for token w, is 1 when r = w − off (as 32-bit
  words, the subtraction wrapping) and 0 otherwise. For w below 32000 and off + 3200 at most 32000, a row number
  below 3200 meets the wrapped difference exactly when off ≤ w and r is the true difference w − off: when off
  exceeds w the difference wraps to at least 2^32 − 32000, far above every row number. So the product of a chunk
  with its selector column is the entry at w − off when the token lies in the chunk's window [off, off + 3200),
  and 0 otherwise (x · 1 = x and x · 0 = 0 hold for every extended real, the infinities included).

  Five consecutive windows of 3200 columns are disjoint and tile a half of 16000 columns, so adding the five chunk
  products to a0, one after the other, gives a0 plus the entry at the token if the token lies in that half; and the
  two halves tile the row, so from zero the two halves give exactly the entry at the token.
-/
import Idealize.ShloMosaic.PureOps.Ideal
import Idealize.ShloMosaic.Lib.ValueIdx
import Mathlib.Data.EReal.Basic
import Mathlib.Algebra.BigOperators.Group.Finset.Basic

noncomputable section
namespace Cert.OneHot
open Idealize.ShloMosaic

/-- The selector's entry: the comparison bit of two 32-bit words, zero-extended to 32 bits, read as a signed integer. -/
def hot (a b : BitVec 32) : EReal := ((((IntOp.cmpi .eq a b).setWidth 32).toInt : ℝ) : EReal)

theorem hot_eq (a b : BitVec 32) : hot a b = if a = b then 1 else 0 := by
  unfold hot IntOp.cmpi
  by_cases h : a = b
  · simp [h]
  · have hb : (a == b) = false := beq_eq_false_iff_ne.mpr h
    simp [h, hb]

/-- A left-nested chain of additions: a0, then + s 0, then + s 1, … -/
def chainSum (a0 : EReal) (s : ℕ → EReal) : ℕ → EReal
  | 0 => a0
  | k + 1 => chainSum a0 s k + s k

/-- A row number below 3200 equals the wrapped difference w − off of two words below 32000 exactly when off ≤ w and
    the row number is the true difference: if off exceeds w the difference wraps to at least 2^32 − 32000. -/
theorem ofNat_eq_sub_iff (r : ℕ) (hr : r < 3200) (w off : BitVec 32) (hw : w.toNat < 32000) (hoff : off.toNat ≤ 32000) :
    BitVec.ofNat 32 r = w - off ↔ (off.toNat ≤ w.toNat ∧ r = w.toNat - off.toNat) := by
  rw [← BitVec.toNat_inj, BitVec.toNat_ofNat, BitVec.toNat_sub]
  omega

/-- One chunk: the product of a chunk of 3200 entries with the selector column of token w at chunk offset off picks the entry at w − off if the token falls in the chunk, and is 0 otherwise. -/
theorem chunk_sum (x : Fin 3200 → EReal) (w off : BitVec 32) (hw : w.toNat < 32000) (hoff : off.toNat + 3200 ≤ 32000) :
    ∑ r : Fin 3200, x r * hot (BitVec.ofNat 32 r.val) (w - off)
      = if h : off.toNat ≤ w.toNat ∧ w.toNat < off.toNat + 3200 then x ⟨w.toNat - off.toNat, by omega⟩ else 0 := by
  have key : ∀ r : Fin 3200, BitVec.ofNat 32 r.val = w - off ↔ (off.toNat ≤ w.toNat ∧ r.val = w.toNat - off.toNat) :=
    fun r => ofNat_eq_sub_iff r.val r.isLt w off hw (by omega)
  by_cases h : off.toNat ≤ w.toNat ∧ w.toNat < off.toNat + 3200
  · rw [dif_pos h]
    rw [Finset.sum_eq_single (⟨w.toNat - off.toNat, by omega⟩ : Fin 3200)]
    · rw [hot_eq, if_pos ((key _).mpr ⟨h.1, rfl⟩), mul_one]
    · intro r _ hne
      rw [hot_eq, if_neg, mul_zero]
      intro heq
      exact hne (Fin.ext ((key r).mp heq).2)
    · intro hnot
      exact absurd (Finset.mem_univ _) hnot
  · rw [dif_neg h]
    apply Finset.sum_eq_zero
    intro r _
    rw [hot_eq, if_neg, mul_zero]
    intro heq
    have := (key r).mp heq
    have := r.isLt
    omega

/-- Five chunks of one half (starting at column base) added to a0: a0 plus the entry at the token if the token lies in this half. -/
theorem chainSum_hot (p : Fin 32000 → EReal) (w : BitVec 32) (hw : w.toNat < 32000) (base : ℕ) (hbase : base + 16000 ≤ 32000)
    (off : ℕ → BitVec 32) (hoff : ∀ k, k < 5 → (off k).toNat = base + 3200 * k)
    (x : ℕ → Fin 3200 → EReal) (hx : ∀ k (hk : k < 5) (r : Fin 3200), x k r = p ⟨base + 3200 * k + r.val, by omega⟩) (a0 : EReal) :
    chainSum a0 (fun k => ∑ r : Fin 3200, x k r * hot (BitVec.ofNat 32 r.val) (w - off k)) 5
      = a0 + (if base ≤ w.toNat ∧ w.toNat < base + 16000 then p ⟨w.toNat, hw⟩ else 0) := by
  -- each chunk product: the entry at the token if the token lies in the chunk's window of 3200 columns, else 0
  have hs : ∀ k, k < 5 → (∑ r : Fin 3200, x k r * hot (BitVec.ofNat 32 r.val) (w - off k))
      = if base + 3200 * k ≤ w.toNat ∧ w.toNat < base + 3200 * k + 3200 then p ⟨w.toNat, hw⟩ else 0 := by
    intro k hk
    have hok := hoff k hk
    rw [chunk_sum (x k) w (off k) hw (by omega)]
    by_cases h : base + 3200 * k ≤ w.toNat ∧ w.toNat < base + 3200 * k + 3200
    · rw [if_pos h, dif_pos (by omega), hx k hk]
      congr 1
      apply Fin.ext
      show base + 3200 * k + (w.toNat - (off k).toNat) = w.toNat
      omega
    · rw [if_neg h, dif_neg (by omega)]
  show a0 + _ + _ + _ + _ + _ = _
  beta_reduce
  rw [hs 0 (by omega), hs 1 (by omega), hs 2 (by omega), hs 3 (by omega), hs 4 (by omega)]
  -- the five windows are disjoint and their union is the half
  split_ifs <;> first | omega | simp

/-- The two halves together, from zero: exactly the entry at the token. -/
theorem two_halves (p : Fin 32000 → EReal) (w : BitVec 32) (hw : w.toNat < 32000) :
    (0 + (if 0 ≤ w.toNat ∧ w.toNat < 0 + 16000 then p ⟨w.toNat, hw⟩ else 0))
        + (if 16000 ≤ w.toNat ∧ w.toNat < 16000 + 16000 then p ⟨w.toNat, hw⟩ else 0) = p ⟨w.toNat, hw⟩ := by
  by_cases h : w.toNat < 16000
  · rw [if_pos (by omega), if_neg (by omega), zero_add, add_zero]
  · rw [if_neg (by omega), if_pos (by omega), zero_add, zero_add]

end Cert.OneHot
end
-- ==== Proof.KChain.lean ====
/-
  The finished accumulator at an entry. At the ideal values one chunk's payload adds, to the accumulator's entry (l, n), the
  sum over the chunk's 3200 columns of the probability there times the one-hot selector of bag token n; five chunks tile a
  half of the vocabulary and the two halves tile it, so with the token in [0, 32000) the accumulator after both halves holds
  exactly the probability at the token.
-/
import proofs.«413012_j26250840113737_3_alg».proof.Proof.KNames
import proofs.«413012_j26250840113737_3_alg».proof.Proof.KPay
import proofs.«413012_j26250840113737_3_alg».proof.Proof.KBlocks
import proofs.«413012_j26250840113737_3_alg».proof.Proof.OneHot

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx Cert.OneHot Cert.KernelIdeal.KPay

/-- Chunk `j`'s entries of row `l` of a probability block, and chunk `j`'s offset word (zero past the last chunk). -/
def chX (x0 : Vec Ideal S1x128x16000 .f32) (l : Fin 128) (j : ℕ) (r : Fin 3200) : EReal :=
  if h : j < k0_t1_loop.trips then
    (View.ld x0 (Rect.unit (s := S1x128x16000) (k0_off1 ⟨j, h⟩) S1x128x3200.size (k0_off1_inb ⟨j, h⟩)) : Vec Ideal S1x128x3200 .f32) (ix3 0 l r)
  else 0
def chOff (i : grid0.Coords) (j : ℕ) : BitVec 32 := if h : j < k0_t1_loop.trips then offW i ⟨j, h⟩ else 0

/-- The chain of payloads at an entry is the left-nested chain of the chunks' selector sums. -/
theorem chain_apply (i : grid0.Coords) (v3 : Vec Ideal S1x1x200 .i32) (x0 : Vec Ideal S1x128x16000 .f32) (a0 : Vec Ideal S128x200 .f32)
    (l : Fin 128) (n : Fin 200) :
    ∀ k, k ≤ k0_t1_loop.trips → accChain (F := Ideal) i v3 x0 a0 k (ix2 l n)
      = chainSum (a0 (ix2 l n)) (fun j => ∑ r : Fin 3200, chX x0 l j r * hot (BitVec.ofNat 32 r.val) (v3 (ix3 0 0 n) - chOff i j)) k
  | 0, _ => rfl
  | k + 1, hk => by
    have hk' : k < k0_t1_loop.trips := hk
    rw [show k + 1 = (⟨k, hk'⟩ : Fin k0_t1_loop.trips).val + 1 from rfl, accChain_succ, pay2_apply,
      chain_apply i v3 x0 a0 l n k (Nat.le_of_lt hk')]
    show _ = chainSum _ _ k + _
    refine congrArg (chainSum _ _ k + ·) (Finset.sum_congr rfl fun r _ => ?_)
    simp only [chX, chOff, dif_pos hk']
    rfl

/-- Where the `k`-th chunk's column `r` sits in the block. -/
theorem chunk_idx (k : Fin k0_t1_loop.trips) (l : Fin 128) (r : Fin 3200) :
    (Rect.unit (s := S1x128x16000) (k0_off1 k) S1x128x3200.size (k0_off1_inb k)).emb (ix3 0 l r)
      = ix3 0 l ⟨3200 * k.val + r.val, by have := k.isLt; have h5 : k0_t1_loop.trips = 5 := trips_eq; have := r.isLt; omega⟩ := by
  funext a; apply Fin.ext
  rw [Rect.emb_apply]
  have e := off1_eq k
  match a with
  | ⟨0, _⟩ => show k0_off1 k (0 : Fin 3) + 1 * 0 = 0; rw [e]; rfl
  | ⟨1, _⟩ => show k0_off1 k (1 : Fin 3) + 1 * l.val = l.val; rw [e]; show 0 + 1 * l.val = l.val; omega
  | ⟨2, _⟩ => show k0_off1 k (2 : Fin 3) + 1 * r.val = 3200 * k.val + r.val; rw [e]; show 3200 * k.val + 1 * r.val = _; omega

end Cert.KernelIdeal.KVal

end
-- ==== Proof.KHost.lean ====
/-
  What the kernel's region finds in the four arrays the host computes before it.

  Before its one region the kernel's program runs the same first operations as the reference, the two masked embedding
  lookups, and then two reshapes. Read back in order, the contents of the two embedding arrays are the reference's
  stage functions of the launch contents of the same arguments: the two programs' shapes, dimension numbers and shape
  facts agree literally. A reshape that inserts an axis of size one keeps the row-major position, so entry (b, 0, n) of
  the [8,1,200] array is entry (b, n) of the [8,200] one, and entry (b, 0, l) of the [8,1,128] array is entry (b, l) of
  the [8,128] one.
-/
import proofs.«413012_j26250840113737_3_alg».proof.Proof.Gen.KernelIdeal.Frame
import proofs.«413012_j26250840113737_3_alg».proof.Proof.RefRead
import Idealize.ShloMosaic.Lib.ValueIdx
import Idealize.ShloMosaic.Lib.ValueLayout
import Idealize.ShloMosaic.Lib.Pipeline.Value
import Idealize.ShloMosaic.Lib.StableHlo.Run

noncomputable section
namespace Cert.KernelIdeal.KHost
open Idealize.ShloMosaic Idealize.ShloMosaic.TcCoe Idealize.SL.Sem Cert.KernelIdeal Cert.KernelIdeal.Gen ValueIdx

variable (m : (ℓ : Loc nD τ sig) → Buf (Elt Ideal) ℓ)

/-- The masked gold embeddings the region stages are the reference's stage of the same three arguments. -/
theorem V_v9 (c : Dev nD) :
    (V (F := Ideal) m c main_v9 : S8x128x512.Idx → EReal)
      = Cert.ReferenceIdeal.PRead.val_main_v9 (F := Ideal) (m ((c : Thread nD τ).loc main_arg1)) (m ((c : Thread nD τ).loc main_arg2)) (m ((c : Thread nD τ).loc main_arg5)) := by
  show StableHlo.after (hostOps0 (F := Ideal)) (fun b => m (c, b)) (Proc.devRef .tc main_v9) = _
  after_results
  rfl

/-- The masked bag embeddings likewise. -/
theorem V_v19 (c : Dev nD) :
    (V (F := Ideal) m c main_v19 : S8x200x512.Idx → EReal)
      = Cert.ReferenceIdeal.PRead.val_main_v19 (F := Ideal) (m ((c : Thread nD τ).loc main_arg3)) (m ((c : Thread nD τ).loc main_arg4)) (m ((c : Thread nD τ).loc main_arg5)) := by
  show StableHlo.after (hostOps0 (F := Ideal)) (fun b => m (c, b)) (Proc.devRef .tc main_v19) = _
  after_results_simp
  rfl

/-- The bag tokens reshaped to [8,1,200], at an index. -/
theorem V_v20_apply (c : Dev nD) (b : Fin 8) (n : Fin 200) :
    (V (F := Ideal) m c main_v20 : S8x1x200.Idx → BitVec 32) (ix3 b 0 n) = (m ((c : Thread nD τ).loc main_arg3) : S8x200.Idx → BitVec 32) (ix2 b n) := by
  show StableHlo.after (hostOps0 (F := Ideal)) (fun b => m (c, b)) (Proc.devRef .tc main_v20) (ix3 b 0 n) = _
  after_results
  exact shapeCast_apply _ _ _ _ (by
    show (S8x200.rowMajor (ix2 b n)).val = (S8x1x200.rowMajor (ix3 b 0 n)).val
    rw [Shape.rowMajor_val_two, Shape.rowMajor_val_three]
    show b.val * 200 + n.val = (b.val * 1 + 0) * 200 + n.val
    omega)

/-- The gold mask reshaped to [8,1,128], at an index. -/
theorem V_v21_apply (c : Dev nD) (b : Fin 8) (l : Fin 128) :
    (V (F := Ideal) m c main_v21 : S8x1x128.Idx → EReal) (ix3 b 0 l) = (m ((c : Thread nD τ).loc main_arg2) : S8x128.Idx → EReal) (ix2 b l) := by
  show StableHlo.after (hostOps0 (F := Ideal)) (fun b => m (c, b)) (Proc.devRef .tc main_v21) (ix3 b 0 l) = _
  after_results
  exact shapeCast_apply _ _ _ _ (by
    show (S8x128.rowMajor (ix2 b l)).val = (S8x1x128.rowMajor (ix3 b 0 l)).val
    rw [Shape.rowMajor_val_two, Shape.rowMajor_val_three]
    show b.val * 128 + l.val = (b.val * 1 + 0) * 128 + l.val
    omega)

end Cert.KernelIdeal.KHost
end
-- ==== Proof.Algebra.lean ====
/-
  The squared shifted distance, expanded.

  For rows g, w of 512 finite entries and ε = 8796093 / 2^43,

      Σ_e (w_e − g_e + ε)² = Σ g_e² + Σ w_e² − 2 · Σ g_e w_e + 2ε · (Σ w_e − Σ g_e) + 512 · ε²,

  with 2ε = 8796093 / 2^42 and 512 · ε² = 8796093² / 2^77 = 77371252064649 / 151115727451828646838272.
  The left side is a sum of squares, hence nonnegative, so taking the maximum with zero changes nothing.

  The three bit patterns are read once each as the real numbers they denote; every entry being the image of a real,
  the inclusion of the reals is pushed out of the products, sums and differences, and what is left is the identity
  above over the reals.
-/
import proofs.«413012_j26250840113737_3_alg».proof.Proof.Spec
import Idealize.ShloMosaic.PureOps.Ideal.Laws
import Mathlib.Data.EReal.Operations
import Mathlib.Algebra.BigOperators.Group.Finset.Basic
import Mathlib.Algebra.Order.BigOperators.Group.Finset
import Mathlib.Tactic.Ring
import Mathlib.Tactic.NormNum

noncomputable section
namespace Cert.LossAlg
open Idealize.ShloMosaic Cert.LossSpec

/-- ε: the pattern 0x358637BD has exponent field 107 and fraction field 407485, so it denotes
    (2^23 + 407485) · 2^(107 − 127 − 23) = 8796093 / 2^43. -/
theorem ofBits_eps : Ideal.ofBits .f32 0x358637BD#32 = ((8796093 / 8796093022208 : ℝ) : EReal) := by
  simp [Ideal.ofBits, Ideal.ieee, -EReal.coe_mul]; norm_num

/-- 2ε: the same fraction field one binade up (exponent field 108), 8796093 / 2^42. -/
theorem ofBits_twoEps : Ideal.ofBits .f32 0x360637BD#32 = ((8796093 / 4398046511104 : ℝ) : EReal) := by
  simp [Ideal.ofBits, Ideal.ieee, -EReal.coe_mul]; norm_num

/-- The pattern 0x40000000 (exponent field 128, fraction 0) denotes 2. -/
theorem ofBits_two : Ideal.ofBits .f32 0x40000000#32 = ((2 : ℝ) : EReal) := by
  simp [Ideal.ofBits, Ideal.ieee, -EReal.coe_mul]; norm_num

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: the square of w − g + ε summed over 512 entries, expanded. -/
theorem real_expand (g w : Fin 512 → ℝ) :
    ((((∑ e : Fin 512, g e * g e) + (∑ e : Fin 512, w e * w e)) - 2 * (∑ e : Fin 512, g e * w e))
        + (8796093 / 4398046511104 : ℝ) * ((∑ e : Fin 512, w e) - (∑ e : Fin 512, g e)))
        + (77371252064649 / 151115727451828646838272 : ℝ)
      = ∑ e : Fin 512, (w e - g e + 8796093 / 8796093022208) * (w e - g e + 8796093 / 8796093022208) := by
  have h : ∀ e : Fin 512, (w e - g e + 8796093 / 8796093022208) * (w e - g e + 8796093 / 8796093022208)
      = (((g e * g e + w e * w e) - 2 * (g e * w e)) + (8796093 / 4398046511104 : ℝ) * (w e - g e))
          + (77371252064649 / 77371252455336267181195264 : ℝ) := by
    intro e; ring
  rw [Finset.sum_congr rfl (fun e _ => h e)]
  rw [Finset.sum_add_distrib, Finset.sum_add_distrib, Finset.sum_sub_distrib, Finset.sum_add_distrib,
    ← Finset.mul_sum, ← Finset.mul_sum, Finset.sum_sub_distrib, Finset.sum_const, Finset.card_univ,
    Fintype.card_fin, nsmul_eq_mul]
  norm_num

/-- ‖w − g + ε‖² expanded: Σg² + Σw² − 2·Σg·w + 2ε·(Σw − Σg) + 512·ε², clamped at zero (it is a sum of squares, so the clamp does nothing), for rows of finite entries. -/
theorem sqDist_expand (g w : Fin 512 → EReal) (hg : ∀ e, ∃ r : ℝ, g e = (r : EReal)) (hw : ∀ e, ∃ r : ℝ, w e = (r : EReal)) :
    max (((((∑ e : Fin 512, g e * g e) + (∑ e : Fin 512, w e * w e)) - Ideal.ofBits .f32 0x40000000#32 * (∑ e : Fin 512, g e * w e))
          + Ideal.ofBits .f32 0x360637BD#32 * ((∑ e : Fin 512, w e) - (∑ e : Fin 512, g e)))
          + (((77371252064649 / 151115727451828646838272 : ℝ)) : EReal))
        (Ideal.ofBits .f32 0x00000000#32)
      = sqDist g w := by
  choose gr hgr using hg
  choose wr hwr using hw
  obtain rfl : g = fun e => ((gr e : ℝ) : EReal) := funext hgr
  obtain rfl : w = fun e => ((wr e : ℝ) : EReal) := funext hwr
  unfold sqDist
  beta_reduce
  rw [show epsW = ((8796093 / 8796093022208 : ℝ) : EReal) from ofBits_eps,
    ofBits_two, ofBits_twoEps, Ideal.ofBits_zero_f32]
  simp only [← EReal.coe_mul, ← EReal.coe_add, ← EReal.coe_sub, ← coe_sum]
  rw [real_expand gr wr]
  exact max_eq_left (EReal.coe_nonneg.mpr (Finset.sum_nonneg (fun e _ => mul_self_nonneg _)))

end Cert.LossAlg
end
-- ==== Proof.EmbFacts.lean ====
import proofs.«413012_j26250840113737_3_alg».proof.Proof.RefRead
import Idealize.ShloMosaic.PureOps.Ideal
import Mathlib.Data.EReal.Basic

/-!
# The masked embeddings are real-valued

The reference forms the masked gold embeddings as the elementwise product of a gather of rows of
the table `W` and the mask broadcast along the feature axis, and the masked bag embeddings likewise.
Every entry of a gather of `W` is an entry of `W` (whatever the index words are), every entry of
the broadcast mask is an entry of the mask, and a product of two reals is a real. So when the table
and the masks are real-valued everywhere, so are both embedding arrays.
-/

noncomputable section
namespace Cert.EmbFacts
open Idealize.ShloMosaic Cert.ReferenceIdeal Cert.ReferenceIdeal.PRead

/-- A product of two extended reals that are reals is a real. -/
theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- Every entry of the masked gold embeddings is a real number when the mask and the table are finite. -/
theorem gold_emb_fin (gold : (⟨S8x128, .i32⟩ : BufTy).Contents (Elt Ideal)) (mk : (⟨S8x128, .f32⟩ : BufTy).Contents (Elt Ideal)) (W : (⟨S32000x512, .f32⟩ : BufTy).Contents (Elt Ideal))
    (hmk : ∀ i, ∃ r : ℝ, mk i = (r : EReal)) (hW : ∀ i, ∃ r : ℝ, W i = (r : EReal)) :
    ∀ i, ∃ r : ℝ, val_main_v9 (F := Ideal) gold mk W i = (r : EReal) := by
  intro i
  rw [val_main_v9_apply, Ideal.mulf_def]
  refine real_mul ?_ ?_
  · -- the gathered entry is the table's entry at the operand index the gather computes
    unfold val_main_v6
    exact hW (GatherDims.operandIdx _ i _)
  · -- the broadcast mask's entry is the mask's entry at the leading two coordinates
    rw [val_main_v8_apply, val_main_v7_apply]
    exact hmk _

/-- The same for the masked bag embeddings. -/
theorem bag_emb_fin (bow : (⟨S8x200, .i32⟩ : BufTy).Contents (Elt Ideal)) (bmk : (⟨S8x200, .f32⟩ : BufTy).Contents (Elt Ideal)) (W : (⟨S32000x512, .f32⟩ : BufTy).Contents (Elt Ideal))
    (hbmk : ∀ i, ∃ r : ℝ, bmk i = (r : EReal)) (hW : ∀ i, ∃ r : ℝ, W i = (r : EReal)) :
    ∀ i, ∃ r : ℝ, val_main_v19 (F := Ideal) bow bmk W i = (r : EReal) := by
  intro i
  rw [val_main_v19_apply, Ideal.mulf_def]
  refine real_mul ?_ ?_
  · unfold val_main_v16
    exact hW (GatherDims.operandIdx _ i _)
  · rw [val_main_v18_apply, val_main_v17_apply]
    exact hbmk _

end Cert.EmbFacts
end
-- ==== Proof.LibSumIdx3.lean ====
/-
  Sums over the indices of a rank-3 shape, by coordinates.

  An index of a shape with extents (n0, n1, n2) is determined by its three coordinates, so the index set is in
  bijection with the product of the three coordinate ranges; re-indexing a sum through that bijection and splitting
  the sum over a product twice gives

      Σ_i f i = Σ_a Σ_b Σ_c f (a, b, c),

  in any commutative additive monoid. When the middle extent is one, the middle sum has the single term b = 0, and
  the sum is the double sum over the outer coordinates, Σ_a Σ_c f (a, 0, c).
-/
import Idealize.ShloMosaic.Lib.ValueIdx
import Mathlib.Algebra.BigOperators.Fin
import Mathlib.Algebra.BigOperators.Group.Finset.Basic

noncomputable section
namespace Cert.SumIdx
open Idealize.ShloMosaic Idealize.ShloMosaic.ValueIdx

/-- A rank-3 index set is the product of its three coordinate ranges: an index goes to its coordinates, a triple to
    the index with those coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 shape is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With a middle axis of extent one: the double sum over the outer coordinates. -/
theorem sum_idx3_unit {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  rw [Fin.sum_univ_one]

end Cert.SumIdx
end
-- ==== Proof.KValue.lean ====
/-
  The kernel program's result at the ideal values is the specification's total.

  Entry (b, 0, l) of the output array is the row batch b's odd point wrote: the mask at (b, l) times the sum over the bag of
  | sqrt(expanded squared distance) − accumulator |. The expanded squared distance of two finite rows is the squared
  shifted distance (the expansion law); the accumulator after both halves holds the probability at the bag token (the
  one-hot chunk sums), the token being in range; the blocks a point loads are the arrays' entries of batch b; and the
  host's sum over [8,1,128] is the double sum over batches and positions.
-/
import proofs.«413012_j26250840113737_3_alg».proof.Proof.KRun
import proofs.«413012_j26250840113737_3_alg».proof.Proof.KChain
import proofs.«413012_j26250840113737_3_alg».proof.Proof.KHost
import proofs.«413012_j26250840113737_3_alg».proof.Proof.Algebra
import proofs.«413012_j26250840113737_3_alg».proof.Proof.EmbFacts
import proofs.«413012_j26250840113737_3_alg».proof.Proof.LibSumIdx3
import proofs.«413012_j26250840113737_3_alg».proof.Proof.RefValue

-- membership in a rectangle of production extents (`View.cover_of_tiled`): the elaborator's structural look
-- recurses once per coordinate of the long axes
set_option maxRecDepth 16384

noncomputable section

namespace Cert.KernelIdeal.KVal

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx Cert.OneHot Cert.KernelIdeal.KPay Cert.KernelIdeal.KHost Cert.LossSpec

variable (m : (ℓ : Loc nD τ sig) → Buf (Elt Ideal) ℓ)

/-- The argument arrays, at their literal types. -/
abbrev aP (c : Dev nD) : S8x128x32000.Idx → EReal := m ((c.tc : Thread nD τ).loc main_arg0)
abbrev aGold (c : Dev nD) : S8x128.Idx → BitVec 32 := m ((c.tc : Thread nD τ).loc main_arg1)
abbrev aMk (c : Dev nD) : S8x128.Idx → EReal := m ((c.tc : Thread nD τ).loc main_arg2)
abbrev aBow (c : Dev nD) : S8x200.Idx → BitVec 32 := m ((c.tc : Thread nD τ).loc main_arg3)
abbrev aBmk (c : Dev nD) : S8x200.Idx → EReal := m ((c.tc : Thread nD τ).loc main_arg4)
abbrev aW (c : Dev nD) : S32000x512.Idx → EReal := m ((c.tc : Thread nD τ).loc main_arg5)

/-- The masked embedding arrays, as the reference's stages of the same arguments. -/
abbrev eG (c : Dev nD) : S8x128x512.Idx → EReal := Cert.ReferenceIdeal.PRead.val_main_v9 (F := Ideal) (aGold m c) (aMk m c) (aW m c)
abbrev eB (c : Dev nD) : S8x200x512.Idx → EReal := Cert.ReferenceIdeal.PRead.val_main_v19 (F := Ideal) (aBow m c) (aBmk m c) (aW m c)

/-- The token a point's block holds for bag entry `n` is the batch's. -/
theorem tok_eq (c : Dev nD) (t : Fin cfg0.N) (n : Fin 200) : tblk m c t (ix3 0 0 n) = aBow m c (ix2 (batchOf t) n) :=
  (tblk_apply m c t n).trans (V_v20_apply m c (batchOf t) n)

/-- One half's five chunks at an entry: what was there plus the probability at the token if the token lies in this half. -/
theorem half_apply (c : Dev nD) (t : Fin cfg0.N) (b : Fin 8) (hb : batchOf t = b) (base : ℕ) (hbase : 16000 * (t.val % 2) = base)
    (a0 : Vec Ideal S128x200 .f32) (l : Fin 128) (n : Fin 200) (hw : (aBow m c (ix2 b n)).toNat < 32000) :
    accChain (F := Ideal) (grid0.coords t) (tblk m c t) (pblk m c t) a0 k0_t1_loop.trips (ix2 l n)
      = a0 (ix2 l n) + (if base ≤ (aBow m c (ix2 b n)).toNat ∧ (aBow m c (ix2 b n)).toNat < base + 16000
          then aP m c (ix3 b l ⟨(aBow m c (ix2 b n)).toNat, hw⟩) else 0) := by
  subst hb; subst hbase
  have h5 : k0_t1_loop.trips = 5 := trips_eq
  have ht2 : t.val % 2 < 2 := Nat.mod_lt _ (by decide)
  rw [chain_apply _ _ _ _ l n _ (le_refl _), tok_eq, h5]
  refine chainSum_hot (fun v => aP m c (ix3 (batchOf t) l v)) _ hw (16000 * (t.val % 2)) (by omega) (chOff (grid0.coords t)) ?_
    (chX (pblk m c t) l) ?_ (a0 (ix2 l n))
  · intro k hk
    have hk' : k < k0_t1_loop.trips := by rw [h5]; exact hk
    simp only [chOff, dif_pos hk']
    rw [offW_toNat, (coords_val t).2]
  · intro k hk r
    have hk' : k < k0_t1_loop.trips := by rw [h5]; exact hk
    simp only [chX, dif_pos hk']
    show pblk m c t ((Rect.unit (s := S1x128x16000) (k0_off1 ⟨k, hk'⟩) S1x128x3200.size (k0_off1_inb ⟨k, hk'⟩)).emb (ix3 0 l r)) = _
    rw [chunk_idx, pblk_apply, V_main_arg0]
    exact congrArg (fun v => aP m c (ix3 (batchOf t) l v)) (Fin.ext (by show 16000 * (t.val % 2) + (3200 * k + r.val) = 16000 * (t.val % 2) + 3200 * k + r.val; omega))

/-- After both halves the accumulator's entry (l, n) is the probability at bag token n. -/
theorem accFull_apply (c : Dev nD) (t : Fin cfg0.N) (h1 : t.val % 2 = 1) (b : Fin 8) (hb : batchOf t = b) (l : Fin 128) (n : Fin 200)
    (hw : (aBow m c (ix2 b n)).toNat < 32000) :
    accFull (F := Ideal) m c t (ix2 l n) = aP m c (ix3 b l ⟨(aBow m c (ix2 b n)).toNat, hw⟩) := by
  unfold accFull accHalf
  rw [half_apply m c t b hb 16000 (by omega) _ l n hw,
    half_apply m c (prevPt t) b (by rw [← hb]; exact Fin.ext (by show (t.val - 1) / 2 = t.val / 2; omega)) 0
      (by show 16000 * ((t.val - 1) % 2) = 0; omega) _ l n hw,
    pay1_apply]
  exact two_halves (fun v => aP m c (ix3 b l v)) _ hw

/-- The row an odd point writes, at position `l`, is the specification's term of its batch. -/
theorem rowOut_apply (c : Dev nD) (t : Fin cfg0.N) (h1 : t.val % 2 = 1) (b : Fin 8) (hb : batchOf t = b) (l : Fin 128)
    (hmk : ∀ i, ∃ r : ℝ, aMk m c i = (r : EReal)) (hbmk : ∀ i, ∃ r : ℝ, aBmk m c i = (r : EReal)) (hW : ∀ i, ∃ r : ℝ, aW m c i = (r : EReal))
    (hw : ∀ n, (aBow m c (ix2 b n)).toNat < 32000) :
    rowOut (F := Ideal) m c t (rowIx l)
      = rowLoss (aMk m c (ix2 b l)) (fun e => eG m c (ix3 b l e)) (fun n e => eB m c (ix3 b n e))
          (fun n => aP m c (ix3 b l ⟨(aBow m c (ix2 b n)).toNat, hw n⟩)) := by
  subst hb
  unfold rowOut
  rw [show rowIx l = ix3 0 0 l from funext fun a => by match a with | ⟨0, _⟩ => rfl | ⟨1, _⟩ => rfl | ⟨2, _⟩ => rfl]
  rw [pay3_apply, pay4_apply, mblk_apply, V_v21_apply]
  unfold rowLoss
  refine congrArg (aMk m c (ix2 (batchOf t) l) * ·) (Finset.sum_congr rfl fun n _ => ?_)
  rw [pay5_apply, accFull_apply m c t h1 (batchOf t) rfl l n (hw n)]
  unfold absDev
  have hexp : expanded (fun e => gblk m c t (ix3 0 l e)) (fun e => wblk m c t (ix3 0 n e))
      = sqDist (fun e => eG m c (ix3 (batchOf t) l e)) (fun e => eB m c (ix3 (batchOf t) n e)) := by
    have eg : (fun e => gblk m c t (ix3 0 l e)) = fun e => eG m c (ix3 (batchOf t) l e) :=
      funext fun e => (gblk_apply m c t l e).trans (congrFun (V_v9 m c) _)
    have ew : (fun e => wblk m c t (ix3 0 n e)) = fun e => eB m c (ix3 (batchOf t) n e) :=
      funext fun e => (wblk_apply m c t n e).trans (congrFun (V_v19 m c) _)
    rw [eg, ew]
    unfold expanded
    exact Cert.LossAlg.sqDist_expand _ _ (fun e => Cert.EmbFacts.gold_emb_fin _ _ _ hmk hW _) (fun e => Cert.EmbFacts.bag_emb_fin _ _ _ hbmk hW _)
  rw [hexp]

/-- The host's sum of an [8,1,128] array over all its axes, from the zero word, is the double sum over batches and positions. -/
theorem sum_all (x : FVec Ideal S8x1x128 .f32) :
    (Host.reduceAdd (F := Ideal) x (constant S_ .f32 0x00000000#32) reducesTo_S8x1x128_S_d0_1_2 h_S_ : FVec Ideal S_ .f32) ValueIdx.ix0
      = ∑ b : Fin 8, ∑ l : Fin 128, x (ix3 b 0 l) := by
  simp only [Host.reduceAdd, Ideal.hostReduceAdd_def]
  rw [Ideal.hostReduceAdd_total reducesTo_S8x1x128_S_d0_1_2 (fun b => b.elim0) x _ ValueIdx.ix0]
  rw [show (constant (F := Ideal) S_ .f32 0x00000000#32) (Shape.Idx.first h_S_) = 0 from Ideal.ofBits_zero_f32, zero_add,
    Cert.SumIdx.sum_idx3_unit]

/-- The program's result is the specification's total. -/
theorem kres_total (c : Dev nD)
    (hmk : ∀ i, ∃ r : ℝ, aMk m c i = (r : EReal)) (hbmk : ∀ i, ∃ r : ℝ, aBmk m c i = (r : EReal)) (hW : ∀ i, ∃ r : ℝ, aW m c i = (r : EReal))
    (h0 : ∀ i, 0 ≤ (aBow m c i).toInt) (h1 : ∀ i, (aBow m c i).toInt < 32000) :
    kres (F := Ideal) m c ValueIdx.ix0
      = total (fun b l => aMk m c (ix2 b l)) (fun b l e => eG m c (ix3 b l e)) (fun b n e => eB m c (ix3 b n e))
          (fun b l n => aP m c (ix3 b l ⟨(aBow m c (ix2 b n)).toNat, Cert.ReferenceIdeal.RefValue.toNat_lt _ (h0 _) (h1 _)⟩)) := by
  unfold kres
  refine (sum_all (outArr m c)).trans ?_
  unfold total
  refine Finset.sum_congr rfl fun b _ => Finset.sum_congr rfl fun l _ => ?_
  show rowOut m c (oddPt b) (rowIx l) = _
  exact rowOut_apply m c (oddPt b) (by show (2 * b.val + 1) % 2 = 1; omega) b (Fin.ext (by show (2 * b.val + 1) / 2 = b.val; omega)) l
    hmk hbmk hW (fun n => Cert.ReferenceIdeal.RefValue.toNat_lt _ (h0 _) (h1 _))

end Cert.KernelIdeal.KVal

end
-- ==== Proof.lean ====
/- The proof of `Cert.Claim`: the three frames, the ideal pass's one ledger entry, and the equality of the two idealized
   programs' results as extended reals.

   Both programs compute   Σ_b Σ_l mask(b,l) · Σ_n | ‖w(b,n) − g(b,l) + ε‖ − p(b,l,bow(b,n)) |   over the masked embedding rows g, w
   (the same host operations in both) and the probabilities p. The kernel gathers p(b,l,·) at the bag tokens by adding, chunk by
   chunk, the product of the probabilities with a one-hot selector of the tokens (exact on the extended reals once every token
   lies in [0, 32000): the added evident-domain precondition), and computes the squared distance expanded,
   Σg² + Σw² − 2 g·w + 2ε(Σw − Σg) + 512 ε², clamped at zero: equal to Σ(w − g + ε)² for finite rows (finite mask and table),
   with 2ε the exact double of the reference's word for ε and 512 ε² the kernel's named constant. -/
import proofs.«413012_j26250840113737_3_alg».proof.Defs
import proofs.«413012_j26250840113737_3_alg».proof.Proof.Gen.Kernel
import proofs.«413012_j26250840113737_3_alg».proof.Proof.Gen.Kernel.Skeleton
import proofs.«413012_j26250840113737_3_alg».proof.Proof.Gen.Kernel.Loops
import proofs.«413012_j26250840113737_3_alg».proof.Proof.Gen.Kernel.Launch
import proofs.«413012_j26250840113737_3_alg».proof.Proof.Gen.Kernel.Points
import proofs.«413012_j26250840113737_3_alg».proof.Proof.Gen.Kernel.Frame
import proofs.«413012_j26250840113737_3_alg».proof.Proof.Gen.KernelIdeal
import proofs.«413012_j26250840113737_3_alg».proof.Proof.Gen.KernelIdeal.Skeleton
import proofs.«413012_j26250840113737_3_alg».proof.Proof.Gen.KernelIdeal.Loops
import proofs.«413012_j26250840113737_3_alg».proof.Proof.Gen.KernelIdeal.Launch
import proofs.«413012_j26250840113737_3_alg».proof.Proof.Gen.KernelIdeal.Points
import proofs.«413012_j26250840113737_3_alg».proof.Proof.Gen.KernelIdeal.Frame
import proofs.«413012_j26250840113737_3_alg».proof.Proof.Gen.ReferenceIdeal
import proofs.«413012_j26250840113737_3_alg».proof.Proof.Gen.Pre_finite_inputs
import proofs.«413012_j26250840113737_3_alg».proof.Proof.RefRun
import proofs.«413012_j26250840113737_3_alg».proof.Proof.RefRead
import proofs.«413012_j26250840113737_3_alg».proof.Proof.RefValue
import proofs.«413012_j26250840113737_3_alg».proof.Proof.PreFacts
import proofs.«413012_j26250840113737_3_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ledger's one entry: the kernel's folded 512·ε² is named the exact rational 8796093² / 2^77, ε = 8796093 / 2^43 the number
    the reference's word for 1e-6 denotes. -/
theorem preserves : Cert.preserves_Kernel_KernelIdeal :=
  IdealRules.named_const.statement Cert.KernelIdeal.κ "e_eps_sq" .f32 0x300CBCCC#32
    ((77371252064649 / 151115727451828646838272 : ℝ) : EReal) rfl

/-- Both results are the specification's total of the same arguments. -/
theorem algebraic : Cert.algebraic_KernelIdeal_ReferenceIdeal := by
  intro m ρ m' ρ' hpre hagree
  have hdec := fun c => Cert.PreFacts.decode _ _ _ _ _ _ (hpre c)
  refine ⟨fun c => Cert.KernelIdeal.KVal.kres m c, Cert.KernelIdeal.KVal.run_value m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v37_eq, (hagree c).1, (hagree c).2.1, (hagree c).2.2.1, (hagree c).2.2.2.1,
    (hagree c).2.2.2.2.1, (hagree c).2.2.2.2.2]
  funext i
  rw [ValueIdx.eq_ix0 i, Cert.ReferenceIdeal.RefValue.ref_total _ _ _ _ _ _ (hdec c).bow_nonneg (hdec c).bow_lt]
  exact (Cert.KernelIdeal.KVal.kres_total m c (hdec c).mk_fin (hdec c).bmk_fin (hdec c).W_fin (hdec c).bow_nonneg (hdec c).bow_lt).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
